-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x3200000 : Shape := ⟨2, ![2, 3200000]⟩
abbrev S32x64 : Shape := ⟨2, ![32, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  bcast_S_S2x3200000 : S_.BroadcastsInDim S2x3200000 (![] : Fin 0 → Fin S2x3200000.rank)
  reducesTo_S2x3200000_S_d0_1 : S2x3200000.ReducesTo [0, 1] S_

variable [Facts]

def fn_part1 {F : FTy → Type} [FloatOps F] (main_arg1 : IVec S2x3200000 32) (main_arg5 : FVec F S2 .f32) (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_c_8 : IVec S_ 32 := constantI S_ 32 4294867296#32
  let main_v24 : IVec S2x3200000 32 := broadcastInDim S2x3200000 ![] bcast_S_S2x3200000 main_c_8
  let main_v25 : IVec S2x3200000 1 := cmpi .sge main_arg1 main_v24
  let main_c_9 : IVec S_ 32 := constantI S_ 32 100000#32
  let main_v26 : IVec S2x3200000 32 := broadcastInDim S2x3200000 ![] bcast_S_S2x3200000 main_c_9
  let main_v27 : IVec S2x3200000 1 := cmpi .slt main_arg1 main_v26
  let main_v28 : IVec S2x3200000 1 := andi main_v25 main_v27
  let main_c_10 : IVec S_ 1 := constantI S_ 1 1#1
  let main_v29 : IVec S_ 1 := (fun x v => Host.reduce IntOp.andi x v reducesTo_S2x3200000_S_d0_1 h_S_) main_v28 main_c_10
  let main_v30 : IVec S_ 1 := andi main_v23 main_v29
  main_v30

def fn {F : FTy → Type} [FloatOps F] (main_arg0 : FVec F S100000x16 .f32) (main_arg1 : IVec S2x3200000 32) (main_arg2 : FVec F S32x64 .f32) (main_arg3 : FVec F S64 .f32) (main_arg4 : FVec F S64x2 .f32) (main_arg5 : FVec F S2 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x2 .f32 := Host.absf main_arg4
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_arg1 main_arg5 main_v13 main_v16
-- ==== Kernel.lean ====
abbrev S100000x16 : Shape := ⟨2, ![100000, 16]⟩
abbrev S2x3200000 : Shape := ⟨2, ![2, 3200000]⟩
abbrev S32x64 : Shape := ⟨2, ![32, 64]⟩
abbrev S64 : Shape := ⟨1, ![64]⟩
abbrev S64x2 : Shape := ⟨2, ![64, 2]⟩
abbrev S2 : Shape := ⟨1, ![2]⟩
abbrev S16x100000 : Shape := ⟨2, ![16, 100000]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S16x3200000 : Shape := ⟨2, ![16, 3200000]⟩
abbrev S16x64 : Shape := ⟨2, ![16, 64]⟩
abbrev S64x16 : Shape := ⟨2, ![64, 16]⟩
abbrev S2x64 : Shape := ⟨2, ![2, 64]⟩
abbrev S64x1 : Shape := ⟨2, ![64, 1]⟩
abbrev S2x1 : Shape := ⟨2, ![2, 1]⟩
abbrev S16x25600 : Shape := ⟨2, ![16, 25600]⟩
abbrev S64x25600 : Shape := ⟨2, ![64, 25600]⟩
abbrev S2x25600 : Shape := ⟨2, ![2, 25600]⟩
abbrev S1x25600 : Shape := ⟨2, ![1, 25600]⟩
abbrev S3200000x16 : Shape := ⟨2, ![3200000, 16]⟩

abbrev nBuf : Space → Nat
  | .hbm => 69
  | .vmem => 11
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S32x64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S16x100000, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S1, .i32⟩
  | .hbm, ⟨20, _⟩ => ⟨S_, .i32⟩
  | .hbm, ⟨21, _⟩ => ⟨S3200000x1, .i32⟩
  | .hbm, ⟨22, _⟩ => ⟨S3200000x1, .i1⟩
  | .hbm, ⟨23, _⟩ => ⟨S1x1, .i32⟩
  | .hbm, ⟨24, _⟩ => ⟨S3200000x1, .i32⟩
  | .hbm, ⟨25, _⟩ => ⟨S3200000x1, .i1⟩
  | .hbm, ⟨26, _⟩ => ⟨S3200000x1, .i1⟩
  | .hbm, ⟨27, _⟩ => ⟨S_, .i1⟩
  | .hbm, ⟨28, _⟩ => ⟨S3200000, .i1⟩
  | .hbm, ⟨29, _⟩ => ⟨S16x3200000, .f32⟩
  | .hbm, ⟨30, _⟩ => ⟨S16x3200000, .i1⟩
  | .hbm, ⟨31, _⟩ => ⟨S_, .f32⟩
  | .hbm, ⟨32, _⟩ => ⟨S16x3200000, .f32⟩
  | .hbm, ⟨33, _⟩ => ⟨S16x3200000, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S1, .i32⟩
  | .hbm, ⟨43, _⟩ => ⟨S_, .i32⟩
  | .hbm, ⟨44, _⟩ => ⟨S3200000x1, .i32⟩
  | .hbm, ⟨45, _⟩ => ⟨S3200000x1, .i1⟩
  | .hbm, ⟨46, _⟩ => ⟨S1x1, .i32⟩
  | .hbm, ⟨47, _⟩ => ⟨S3200000x1, .i32⟩
  | .hbm, ⟨48, _⟩ => ⟨S3200000x1, .i1⟩
  | .hbm, ⟨49, _⟩ => ⟨S3200000x1, .i1⟩
  | .hbm, ⟨50, _⟩ => ⟨S_, .i1⟩
  | .hbm, ⟨51, _⟩ => ⟨S3200000, .i1⟩
  | .hbm, ⟨52, _⟩ => ⟨S16x3200000, .f32⟩
  | .hbm, ⟨53, _⟩ => ⟨S16x3200000, .i1⟩
  | .hbm, ⟨54, _⟩ => ⟨S_, .f32⟩
  | .hbm, ⟨55, _⟩ => ⟨S16x3200000, .f32⟩
  | .hbm, ⟨56, _⟩ => ⟨S16x3200000, .f32⟩
  | .hbm, ⟨57, _⟩ => ⟨S16x64, .f32⟩
  | .hbm, ⟨58, _⟩ => ⟨S64x16, .f32⟩
  | .hbm, ⟨59, _⟩ => ⟨S64x16, .bf16⟩
  | .hbm, ⟨60, _⟩ => ⟨S16x64, .f32⟩
  | .hbm, ⟨61, _⟩ => ⟨S64x16, .f32⟩
  | .hbm, ⟨62, _⟩ => ⟨S64x16, .bf16⟩
  | .hbm, ⟨63, _⟩ => ⟨S2x64, .f32⟩
  | .hbm, ⟨64, _⟩ => ⟨S2x64, .bf16⟩
  | .hbm, ⟨65, _⟩ => ⟨S64x1, .f32⟩
  | .hbm, ⟨66, _⟩ => ⟨S2x1, .f32⟩
  | .hbm, ⟨67, _⟩ => ⟨S16x3200000, .f32⟩
  | .hbm, ⟨68, _⟩ => ⟨S3200000x16, .f32⟩
  | .local _ .vmem, ⟨0, _⟩ => ⟨S16x25600, .f32⟩
  | .local _ .vmem, ⟨1, _⟩ => ⟨S16x25600, .f32⟩
  | .local _ .vmem, ⟨2, _⟩ => ⟨S16x25600, .f32⟩
  | .local _ .vmem, ⟨3, _⟩ => ⟨S16x25600, .f32⟩
  | .local _ .vmem, ⟨4, _⟩ => ⟨S64x16, .bf16⟩
  | .local _ .vmem, ⟨5, _⟩ => ⟨S64x16, .bf16⟩
  | .local _ .vmem, ⟨6, _⟩ => ⟨S64x1, .f32⟩
  | .local _ .vmem, ⟨7, _⟩ => ⟨S2x64, .bf16⟩
  | .local _ .vmem, ⟨8, _⟩ => ⟨S2x1, .f32⟩
  | .local _ .vmem, ⟨9, _⟩ => ⟨S16x25600, .f32⟩
  | .local _ .vmem, ⟨10, _⟩ => ⟨S16x25600, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v5 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x25600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x25600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x25600 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S100000x16_S16x100000_1_0 : S100000x16.Transposes [1, 0] S16x100000
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S16x3200000_1 : S3200000.BroadcastsInDim S16x3200000 (![1] : Fin 1 → Fin S16x3200000.rank)
  bcast_S_S16x3200000 : S_.BroadcastsInDim S16x3200000 (![] : Fin 0 → Fin S16x3200000.rank)
  slices_S32x64_S16x64_0_0 : S32x64.Slices ![0, 0] S16x64
  transposes_S16x64_S64x16_1_0 : S16x64.Transposes [1, 0] S64x16
  bitsLt_bf16_f32 : FTy.bits .bf16 < FTy.bits .f32
  slices_S32x64_S16x64_16_0 : S32x64.Slices ![16, 0] S16x64
  transposes_S64x2_S2x64_1_0 : S64x2.Transposes [1, 0] S2x64
  shapeCasts_S64_S64x1 : S64.ShapeCasts S64x1
  shapeCasts_S2_S2x1 : S2.ShapeCasts S2x1
  inb_S16x25600_S16x25600_0_0 : ∀ a, (![0, 0] : Fin 2 → Nat) a + S16x25600.size a ≤ S16x25600.size a
  h_S16x25600 : 0 < S16x25600.numel
  shapeCasts_S16x25600_S16x25600 : S16x25600.ShapeCasts S16x25600
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x25600 : S64x1.Broadcasts S64x25600
  inb_S2x64_S2x64_0_0 : ∀ a, (![0, 0] : Fin 2 → Nat) a + S2x64.size a ≤ S2x64.size a
  h_S2x64 : 0 < S2x64.numel
  shapeCasts_S2x64_S2x64 : S2x64.ShapeCasts S2x64
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S2x1_S2x25600 : S2x1.Broadcasts S2x25600
  slices_S2x25600_o0_0_S1x25600 : S2x25600.Slices ![0, 0] S1x25600
  slices_S2x25600_o1_0_S1x25600 : S2x25600.Slices ![1, 0] S1x25600
  broadcasts_S1x25600_S16x25600 : S1x25600.Broadcasts S16x25600
  transposes_S16x3200000_S3200000x16_1_0 : S16x3200000.Transposes [1, 0] S3200000x16
  gather_S16x100000_S3200000x1_S16x3200000_0_1_n_n_1_1_161_wf : GatherDims.WF S16x100000 S3200000x1 S16x3200000 [0] [1] [] [1] [] 1 ![16, 1]
  dot_S64x16_S16x25600_S64x25600_1_0_0_1_n_n_wf : DotDims.WF S64x16 S16x25600 S64x25600 [1] [0] [0] [1] [] []
  dot_S2x64_S64x25600_S2x25600_1_0_0_1_n_n_wf : DotDims.WF S2x64 S64x25600 S2x25600 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x25600.size a ≤ S16x3200000.size a
  hwx0_0 : ∀ i : grid0.Coords, EltTy.bits .f32 = 32 ∨ (Rect.block (s := S16x3200000) S16x25600.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x25600.size a ≤ S16x3200000.size a
  hwx0_1 : ∀ i : grid0.Coords, EltTy.bits .f32 = 32 ∨ (Rect.block (s := S16x3200000) S16x25600.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16.size a ≤ S64x16.size a
  hwx0_2 : ∀ i : grid0.Coords, EltTy.bits .bf16 = 32 ∨ (Rect.block (s := S64x16) S64x16.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .bf16 = 32 ∨ (Rect.block (s := S64x16) S64x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x64.size a ≤ S2x64.size a
  hwx0_5 : ∀ i : grid0.Coords, EltTy.bits .bf16 = 32 ∨ (Rect.block (s := S2x64) S2x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x1.size a ≤ S2x1.size a
  hwx0_6 : ∀ i : grid0.Coords, EltTy.bits .f32 = 32 ∨ (Rect.block (s := S2x1) S2x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x25600.size a ≤ S16x3200000.size a
  hwx0_7 : ∀ i : grid0.Coords, EltTy.bits .f32 = 32 ∨ (Rect.block (s := S16x3200000) S16x25600.size (cc0_transform_7 i) (hinb0_7 i)).WholeWords (EltTy.packing .f32)

variable [Facts₀]

def gather_S16x100000_S3200000x1_S16x3200000_0_1_n_n_1_1_161 : GatherDims S16x100000 S3200000x1 S16x3200000 where
  offsetDims := [0]
  collapsedSliceDims := [1]
  operandBatchingDims := []
  startIndicesBatchingDims := []
  startIndexMap := [1]
  indexVectorDim := 1
  sliceSizes := ![16, 1]
  wf := gather_S16x100000_S3200000x1_S16x3200000_0_1_n_n_1_1_161_wf
def dot_S64x16_S16x25600_S64x25600_1_0_0_1_n_n : DotDims S64x16 S16x25600 S64x25600 where
  lhsContracting := [1]
  rhsContracting := [0]
  lhsNonContracting := [0]
  rhsNonContracting := [1]
  lhsBatch := []
  rhsBatch := []
  wf := dot_S64x16_S16x25600_S64x25600_1_0_0_1_n_n_wf
def dot_S2x64_S64x25600_S2x25600_1_0_0_1_n_n : DotDims S2x64 S64x25600 S2x25600 where
  lhsContracting := [1]
  rhsContracting := [0]
  lhsNonContracting := [0]
  rhsNonContracting := [1]
  lhsBatch := []
  rhsBatch := []
  wf := dot_S2x64_S64x25600_S2x25600_1_0_0_1_n_n_wf

abbrev win0_0 : Pipeline.Window sig grid0 :=
  Pipeline.Window.ofSpec (Memref.whole main_v5) S16x25600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S16x25600.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S64x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S2x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S2x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S16x25600.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x16 : Shape := ⟨2, ![100000, 16]⟩
abbrev S2x3200000 : Shape := ⟨2, ![2, 3200000]⟩
abbrev S32x64 : Shape := ⟨2, ![32, 64]⟩
abbrev S64 : Shape := ⟨1, ![64]⟩
abbrev S64x2 : Shape := ⟨2, ![64, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x16 : Shape := ⟨2, ![3200000, 16]⟩
abbrev S3200000x32 : Shape := ⟨2, ![3200000, 32]⟩
abbrev S3200000x64 : Shape := ⟨2, ![3200000, 64]⟩
abbrev S1x64 : Shape := ⟨2, ![1, 64]⟩
abbrev S3200000x2 : Shape := ⟨2, ![3200000, 2]⟩
abbrev S1x2 : Shape := ⟨2, ![1, 2]⟩

abbrev nBuf : Space → Nat
  | .hbm => 47
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S32x64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S1x3200000, .i32⟩
  | .hbm, ⟨7, _⟩ => ⟨S3200000, .i32⟩
  | .hbm, ⟨8, _⟩ => ⟨S_, .i32⟩
  | .hbm, ⟨9, _⟩ => ⟨S3200000, .i32⟩
  | .hbm, ⟨10, _⟩ => ⟨S3200000, .i1⟩
  | .hbm, ⟨11, _⟩ => ⟨S_, .i32⟩
  | .hbm, ⟨12, _⟩ => ⟨S3200000, .i32⟩
  | .hbm, ⟨13, _⟩ => ⟨S3200000, .i32⟩
  | .hbm, ⟨14, _⟩ => ⟨S3200000, .i32⟩
  | .hbm, ⟨15, _⟩ => ⟨S3200000x1, .i32⟩
  | .hbm, ⟨16, _⟩ => ⟨S3200000x16, .f32⟩
  | .hbm, ⟨17, _⟩ => ⟨S1x3200000, .i32⟩
  | .hbm, ⟨18, _⟩ => ⟨S3200000, .i32⟩
  | .hbm, ⟨19, _⟩ => ⟨S_, .i32⟩
  | .hbm, ⟨20, _⟩ => ⟨S3200000, .i32⟩
  | .hbm, ⟨21, _⟩ => ⟨S3200000, .i1⟩
  | .hbm, ⟨22, _⟩ => ⟨S_, .i32⟩
  | .hbm, ⟨23, _⟩ => ⟨S3200000, .i32⟩
  | .hbm, ⟨24, _⟩ => ⟨S3200000, .i32⟩
  | .hbm, ⟨25, _⟩ => ⟨S3200000, .i32⟩
  | .hbm, ⟨26, _⟩ => ⟨S3200000x1, .i32⟩
  | .hbm, ⟨27, _⟩ => ⟨S3200000x16, .f32⟩
  | .hbm, ⟨28, _⟩ => ⟨S3200000x32, .f32⟩
  | .hbm, ⟨29, _⟩ => ⟨S3200000x64, .f32⟩
  | .hbm, ⟨30, _⟩ => ⟨S1x64, .f32⟩
  | .hbm, ⟨31, _⟩ => ⟨S3200000x64, .f32⟩
  | .hbm, ⟨32, _⟩ => ⟨S3200000x64, .f32⟩
  | .hbm, ⟨33, _⟩ => ⟨S_, .f32⟩
  | .hbm, ⟨34, _⟩ => ⟨S3200000x64, .f32⟩
  | .hbm, ⟨35, _⟩ => ⟨S3200000x64, .f32⟩
  | .hbm, ⟨36, _⟩ => ⟨S3200000x2, .f32⟩
  | .hbm, ⟨37, _⟩ => ⟨S1x2, .f32⟩
  | .hbm, ⟨38, _⟩ => ⟨S3200000x2, .f32⟩
  | .hbm, ⟨39, _⟩ => ⟨S3200000x2, .f32⟩
  | .hbm, ⟨40, _⟩ => ⟨S3200000x1, .f32⟩
  | .hbm, ⟨41, _⟩ => ⟨S3200000x1, .f32⟩
  | .hbm, ⟨42, _⟩ => ⟨S3200000x16, .f32⟩
  | .hbm, ⟨43, _⟩ => ⟨S3200000x16, .f32⟩
  | .hbm, ⟨44, _⟩ => ⟨S3200000x16, .f32⟩
  | .hbm, ⟨45, _⟩ => ⟨S3200000x16, .f32⟩
  | .hbm, ⟨46, _⟩ => ⟨S3200000x16, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S2x3200000_S1x3200000_1_0 : S2x3200000.Slices ![1, 0] S1x3200000
  concatenates_S3200000x16_S3200000x16_S3200000x32_d1 : Shape.Concatenates [S3200000x16, S3200000x16] S3200000x32 1
  bcast_S64_S1x64_1 : S64.BroadcastsInDim S1x64 (![1] : Fin 1 → Fin S1x64.rank)
  bcast_S1x64_S3200000x64_0_1 : S1x64.BroadcastsInDim S3200000x64 (![0, 1] : Fin 2 → Fin S3200000x64.rank)
  bcast_S_S3200000x64 : S_.BroadcastsInDim S3200000x64 (![] : Fin 0 → Fin S3200000x64.rank)
  bcast_S2_S1x2_1 : S2.BroadcastsInDim S1x2 (![1] : Fin 1 → Fin S1x2.rank)
  bcast_S1x2_S3200000x2_0_1 : S1x2.BroadcastsInDim S3200000x2 (![0, 1] : Fin 2 → Fin S3200000x2.rank)
  slices_S3200000x2_S3200000x1_0_0 : S3200000x2.Slices ![0, 0] S3200000x1
  slices_S3200000x2_S3200000x1_0_1 : S3200000x2.Slices ![0, 1] S3200000x1
  bcast_S3200000x1_S3200000x16_0_1 : S3200000x1.BroadcastsInDim S3200000x16 (![0, 1] : Fin 2 → Fin S3200000x16.rank)
  gather_S100000x16_S3200000x1_S3200000x16_1_0_n_n_0_1_116_wf : GatherDims.WF S100000x16 S3200000x1 S3200000x16 [1] [0] [] [0] [] 1 ![1, 16]
  dot_S3200000x32_S32x64_S3200000x64_1_0_0_1_n_n_wf : DotDims.WF S3200000x32 S32x64 S3200000x64 [1] [0] [0] [1] [] []
  dot_S3200000x64_S64x2_S3200000x2_1_0_0_1_n_n_wf : DotDims.WF S3200000x64 S64x2 S3200000x2 [1] [0] [0] [1] [] []

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def dot_S3200000x32_S32x64_S3200000x64_1_0_0_1_n_n : DotDims S3200000x32 S32x64 S3200000x64 where
  lhsContracting := [1]
  rhsContracting := [0]
  lhsNonContracting := [0]
  rhsNonContracting := [1]
  lhsBatch := []
  rhsBatch := []
  wf := dot_S3200000x32_S32x64_S3200000x64_1_0_0_1_n_n_wf
def dot_S3200000x64_S64x2_S3200000x2_1_0_0_1_n_n : DotDims S3200000x64 S64x2 S3200000x2 where
  lhsContracting := [1]
  rhsContracting := [0]
  lhsNonContracting := [0]
  rhsNonContracting := [1]
  lhsBatch := []
  rhsBatch := []
  wf := dot_S3200000x64_S64x2_S3200000x2_1_0_0_1_n_n_wf

class Facts : Prop extends Facts₀ where

variable [Facts]
-- ==== Proof.EdgeRange.lean ====
/-
  What the precondition says of the index array: every word lies in `[-100000, 100000)`.

  The precondition is a conjunction whose last conjunct is an `all` over the index array of "the word is at least
  -100000 and below 100000"; from the whole being true, each word satisfies the two signed comparisons.
-/
import proofs.«409358_j17729624998206_3_alg».proof.Pre_finite_inputs
import proofs.«409358_j17729624998206_3_alg».proof.Proof.Gen.Pre_finite_inputs
import Idealize.ShloMosaic.Lib.ReduceAll
import Idealize.ShloMosaic.Lib.ValueIdx

noncomputable section

namespace Cert.EdgeNet

open Idealize.ShloMosaic Cert.Pre_finite_inputs

variable {F : FTy → Type} [FloatOps F] [Cert.Pre_finite_inputs.Facts]

instance : Subsingleton S_.Idx := ⟨fun a b => funext fun d => d.elim0⟩

/-- Under the precondition every index word is at least `-100000` and below `100000`, as signed integers. -/
theorem edges_in_range (a0 : FVec F S100000x16 .f32) (a1 : IVec S2x3200000 32) (a2 : FVec F S32x64 .f32)
    (a3 : FVec F S64 .f32) (a4 : FVec F S64x2 .f32) (a5 : FVec F S2 .f32)
    (h : Cert.Pre_finite_inputs.fn (F := F) a0 a1 a2 a3 a4 a5 = fun _ => 1#1) (i : S2x3200000.Idx) :
    IntOp.cmpi .sge (a1 i) 4294867296#32 = 1#1 ∧ IntOp.cmpi .slt (a1 i) 100000#32 = 1#1 := by
  have h0 := congrFun h ValueIdx.ix0
  dsimp only [Cert.Pre_finite_inputs.fn, Cert.Pre_finite_inputs.fn_part1] at h0
  have h1 := (IntOp.andi_eq_one.1 h0).2
  have h2 := Host.reduce_andi_all _ _ _ _ _ h1 i
  exact IntOp.andi_eq_one.1 h2

end Cert.EdgeNet

end
-- ==== Proof.EdgeSpec.lean ====
/-
  The edge network as ONE function of the argument arrays, and the arithmetic of an index word.

  For every edge `e` with source node `s` and destination node `d` (the two rows of the index array, a negative word
  counted from the end of the node table), a two-layer network reads the two nodes' feature rows:
      hid e h  = max (Σ_k W1[k, h] · x[d, k] + Σ_k W1[16 + k, h] · x[s, k] + b1[h]) 0
      gate e j = Σ_h W2[h, j] · hid e h + b2[j]
  and the result's row `e` is `gate e 0 · (x[d, ·] − gate e 1 · x[s, ·])`.
-/
import Idealize.ShloMosaic.PureOps.Ideal
import Idealize.ShloMosaic.Lib.ValueIdx

noncomputable section

namespace Cert.EdgeNet

open Idealize.ShloMosaic Idealize.ShloMosaic.ValueIdx
open scoped BigOperators

/-! ## An index word: a negative one counts from the end of the table -/

/-- The index a word names in a table of 100000 rows once a negative word has had the extent added. -/
def wrapW (w : BitVec 32) : BitVec 32 := Scalar.select (IntOp.cmpi .slt w 0#32) (IntOp.addi w 100000#32) w

/-- A word in `[-100000, 100000)` names, after the wrap, a row in `[0, 99999]`: both signed comparisons hold. -/
theorem wrapW_in_table (w : BitVec 32) (hlo : IntOp.cmpi .sge w 4294867296#32 = 1#1)
    (hhi : IntOp.cmpi .slt w 100000#32 = 1#1) :
    IntOp.cmpi .sge (wrapW w) 0#32 = 1#1 ∧ IntOp.cmpi .sle (wrapW w) 99999#32 = 1#1 := by
  have e1 : (4294867296#32 : BitVec 32).toInt = -100000 := by decide
  have e2 : (100000#32 : BitVec 32).toInt = 100000 := by decide
  have e3 : (0#32 : BitVec 32).toInt = 0 := by decide
  have e4 : (99999#32 : BitVec 32).toInt = 99999 := by decide
  have hlo' : -100000 ≤ w.toInt := by
    unfold IntOp.cmpi at hlo
    have := (show ∀ b : Bool, BitVec.ofBool b = 1#1 → b = true from by decide) _ hlo
    simpa [BitVec.sle, e1] using this
  have hhi' : w.toInt < 100000 := by
    unfold IntOp.cmpi at hhi
    have := (show ∀ b : Bool, BitVec.ofBool b = 1#1 → b = true from by decide) _ hhi
    simpa [BitVec.slt, e2] using this
  have key : 0 ≤ (wrapW w).toInt ∧ (wrapW w).toInt ≤ 99999 := by
    unfold wrapW Scalar.select IntOp.cmpi IntOp.addi
    dsimp only
    by_cases h : w.slt 0#32 = true
    · have hneg : w.toInt < 0 := by simpa [BitVec.slt, e3] using h
      rw [h, if_pos (by decide)]
      rw [BitVec.toInt_add, e2]
      have : (w.toInt + 100000).bmod (2 ^ 32) = w.toInt + 100000 := by
        apply Int.bmod_eq_of_le <;> omega
      rw [this]; omega
    · have hpos : 0 ≤ w.toInt := by
        have : ¬ w.toInt < 0 := by simpa [BitVec.slt, e3] using h
        omega
      rw [Bool.not_eq_true] at h
      rw [h, if_neg (by decide)]
      omega
  unfold IntOp.cmpi
  constructor
  · show BitVec.ofBool ((0#32 : BitVec 32).sle (wrapW w)) = 1#1
    have : (0#32 : BitVec 32).sle (wrapW w) = true := by simp [BitVec.sle, e3, key.1]
    rw [this]; rfl
  · show BitVec.ofBool ((wrapW w).sle 99999#32) = 1#1
    have : (wrapW w).sle 99999#32 = true := by simp [BitVec.sle, e4, key.2]
    rw [this]; rfl

/-- Equal words name equal clamped rows (the bound's proof goes along with the word). -/
theorem clampRow_congr {w w' : BitVec 32} (h : w = w') (p : min w.toInt.toNat (100000 - 1) < 100000)
    (p' : min w'.toInt.toNat (100000 - 1) < 100000) :
    (⟨min w.toInt.toNat (100000 - 1), p⟩ : Fin 100000) = ⟨min w'.toInt.toNat (100000 - 1), p'⟩ := by
  subst h; rfl

/-! ## The shapes of the arguments and of the result -/

abbrev SX : Shape := ⟨2, ![100000, 16]⟩
abbrev SEdges : Shape := ⟨2, ![2, 3200000]⟩
abbrev SW1 : Shape := ⟨2, ![32, 64]⟩
abbrev SB1 : Shape := ⟨1, ![64]⟩
abbrev SW2 : Shape := ⟨2, ![64, 2]⟩
abbrev SB2 : Shape := ⟨1, ![2]⟩
abbrev SOut : Shape := ⟨2, ![3200000, 16]⟩

section
variable (x : SX.Idx → EReal) (ei : SEdges.Idx → BitVec 32) (W1 : SW1.Idx → EReal) (b1 : SB1.Idx → EReal)
  (W2 : SW2.Idx → EReal) (b2 : SB2.Idx → EReal)

/-- The node that row `r` of the index array names for edge `e`: the wrapped word, read signed and clamped into the
    table (row 0 the source, row 1 the destination). -/
def node (r : Fin 2) (e : Fin 3200000) : Fin 100000 :=
  ⟨min (wrapW (ei (ix2 r e))).toInt.toNat (100000 - 1), by omega⟩

/-- The hidden layer of edge `e`: the destination's features through the first sixteen rows of `W1`, the source's
    through the last sixteen, the bias, and the rectifier. -/
def hid (e : Fin 3200000) (h : Fin 64) : EReal :=
  max ((∑ k : Fin 16, W1 (ix2 ⟨k.val, by omega⟩ h) * x (ix2 (node ei 1 e) k))
      + (∑ k : Fin 16, W1 (ix2 ⟨16 + k.val, by omega⟩ h) * x (ix2 (node ei 0 e) k))
      + b1 (ix1 h)) (Ideal.ofBits .f32 0x00000000#32)

/-- The two outputs of the network for edge `e`: the gate (`j = 0`) and the scale (`j = 1`). -/
def gate (e : Fin 3200000) (j : Fin 2) : EReal :=
  (∑ h : Fin 64, W2 (ix2 h j) * hid x ei W1 b1 e h) + b2 (ix1 j)

/-- THE RESULT: row `e` is the gate times (the destination's features less the scale times the source's). -/
def G : SOut.Idx → EReal := fun i =>
  gate x ei W1 b1 W2 b2 (i 0) 0
    * (x (ix2 (node ei 1 (i 0)) (i 1)) - gate x ei W1 b1 W2 b2 (i 0) 1 * x (ix2 (node ei 0 (i 0)) (i 1)))

end

end Cert.EdgeNet

end
-- ==== Proof.LibRowGatherScatter.lean ====
/-
  Rows of a table gathered by, and scattered-and-added at, a column of integer indices, read at one element.

  The table has `N` rows of `C` entries; the indices are an `E × 1` column of machine integers.

  * The gather of rows (what `table[idx]` lowers to: one collapsed axis, one offset axis, the start index naming a
    row) reads, at `(e, k)`, the table's entry `k` of the row the index `e` names — the index read as a signed
    integer and clamped into `[0, N - 1]`.
  * The accumulating scatter of rows (what `segment_sum` / `.at[idx].add` lowers to), at the ideal values, leaves at
    `(i, k)` the operand's entry plus the sum of the updates' entries `k` over the rows `e` whose index, read as a
    signed integer and NOT clamped, is `i`; an index that names no row contributes nowhere.
-/
import Idealize.ShloMosaic.PureOps.Ideal
import Idealize.ShloMosaic.Lib.ValueIdx

noncomputable section

namespace Cert.Gcn

open Idealize.ShloMosaic Idealize.ShloMosaic.ValueIdx
open scoped BigOperators

/-! ## The gather of rows -/

/-- The dimension numbers of a row gather: operand `N × C`, start indices `E × 1`, result `E × C`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: entry `k` of the row that index `e` names, read signed and clamped into
    `[0, N - 1]`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e (0 : Fin 1))).toInt.toNat (N - 1), by omega⟩ k) := by
  unfold Host.gather
  congr 1
  funext a
  refine Fin.ext ?_
  show (rowGatherDims N E C wf).start (ix2 e k) idx a + (rowGatherDims N E C wf).batchCoord (ix2 e k) a
      + (rowGatherDims N E C wf).offCoord (ix2 e k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowGatherDims N E C wf).startIndexMap from List.mem_singleton.mpr rfl)]
    have hsi : (rowGatherDims N E C wf).siIdx (ix2 e k) ⟨List.idxOf (⟨0, by decide⟩ : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx (1 : Fin 2) + 0
        + (rowGatherDims N E C wf).offCoord (ix2 e k) (1 : Fin 2) = k.val
    have hs : (rowGatherDims N E C wf).start (ix2 e k) idx (1 : Fin 2) = 0 := by
      unfold GatherDims.start
      rw [dif_neg (show (1 : Fin 2) ∉ ([0] : List (Fin 2)) from by decide)]
    have hm : (1 : Fin 2) ∈ (rowGatherDims N E C wf).sKept :=
      (GatherDims.mem_sKept _ _).mpr ⟨show (1 : Fin 2) ∉ ([0] : List (Fin 2)) from by decide, List.not_mem_nil⟩
    rw [hs]
    unfold GatherDims.offCoord
    rw [dif_pos hm]
    simp only [Nat.zero_add]
    rfl

/-! ## The accumulating scatter of rows -/

/-- The dimension numbers of a row scatter: operand `N × C`, scatter indices `E × 1`, updates `E × C`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis the update `(e, k)` lands at the signed value of index `e`. -/
theorem rowScatter_pos0 :
    (rowScatterDims N E C wf).start (ix2 e k) idx (0 : Fin 2) + ((rowScatterDims N E C wf).window (ix2 e k) (0 : Fin 2) : ℤ)
      = (idx (ix2 e (0 : Fin 1))).toInt := by
  have hw : (rowScatterDims N E C wf).window (ix2 e k) (0 : Fin 2) = 0 := by
    have h0 : (0 : Fin 2) ∉ (rowScatterDims N E C wf).sKept := show (0 : Fin 2) ∉ ([1] : List (Fin 2)) from by decide
    unfold ScatterDims.window
    rw [dif_neg h0]
  rw [hw]
  unfold ScatterDims.start
  rw [dif_pos (show (0 : Fin 2) ∈ ([0] : List (Fin 2)) from by decide)]
  have hsi : (rowScatterDims N E C wf).siIdx (ix2 e k) ⟨List.idxOf (0 : Fin 2) (rowScatterDims N E C wf).scatterDimsToOperandDims,
      List.idxOf_lt_length_iff.2 (show (0 : Fin 2) ∈ ([0] : List (Fin 2)) from by decide)⟩ = ix2 e (0 : Fin 1) := by
    funext b; refine Fin.ext ?_
    match b with
    | ⟨0, _⟩ => rfl
    | ⟨1, _⟩ => rfl
  rw [hsi]
  simp

/-- On the column axis the update `(e, k)` lands at `k`. -/
theorem rowScatter_pos1 :
    (rowScatterDims N E C wf).start (ix2 e k) idx (1 : Fin 2) + ((rowScatterDims N E C wf).window (ix2 e k) (1 : Fin 2) : ℤ)
      = (k.val : ℤ) := by
  have hs : (rowScatterDims N E C wf).start (ix2 e k) idx (1 : Fin 2) = 0 := by
    unfold ScatterDims.start
    rw [dif_neg (show (1 : Fin 2) ∉ ([0] : List (Fin 2)) from by decide)]
  have hw : (rowScatterDims N E C wf).window (ix2 e k) (1 : Fin 2) = k.val := by
    have h1 : (1 : Fin 2) ∈ (rowScatterDims N E C wf).sKept := show (1 : Fin 2) ∈ ([1] : List (Fin 2)) from by decide
    unfold ScatterDims.window
    rw [dif_pos h1]
    rfl
  rw [hs, hw, zero_add]

end

section
variable {N E C w : Nat} (wf : ScatterDims.WF ⟨2, ![N, C]⟩ ⟨2, ![E, 1]⟩ ⟨2, ![E, C]⟩ [1] [0] [0] 1)
  (idx : IVec ⟨2, ![E, 1]⟩ w)

/-- The update `(e, b)` lands on `(i, k)` exactly when index `e`, read signed, is `i` and `b = k`. -/
theorem rowScatter_resultIdx (e : Fin E) (b : Fin C) (i : Fin N) (k : Fin C) :
    (rowScatterDims N E C wf).resultIdx? (ix2 e b) idx = some (ix2 i k)
      ↔ (idx (ix2 e (0 : Fin 1))).toInt = (i.val : ℤ) ∧ b = k := by
  have p0 := rowScatter_pos0 wf idx e b
  have p1 := rowScatter_pos1 wf idx e b
  unfold ScatterDims.resultIdx?
  constructor
  · intro h
    split at h
    · rename_i hb
      have hf := Option.some.inj h
      have h0 : ((rowScatterDims N E C wf).start (ix2 e b) idx (0 : Fin 2)
          + ((rowScatterDims N E C wf).window (ix2 e b) (0 : Fin 2) : ℤ)).toNat = i.val :=
        congrArg (fun f => (f (0 : Fin 2)).val) hf
      have h1 : ((rowScatterDims N E C wf).start (ix2 e b) idx (1 : Fin 2)
          + ((rowScatterDims N E C wf).window (ix2 e b) (1 : Fin 2) : ℤ)).toNat = k.val :=
        congrArg (fun f => (f (1 : Fin 2)).val) hf
      have b0 := (hb (0 : Fin 2)).1
      rw [p0] at h0 b0
      rw [p1] at h1
      exact ⟨by omega, Fin.ext (by omega)⟩
    · exact absurd h (by simp)
  · rintro ⟨h0, rfl⟩
    have hb : ∀ a : Fin 2, 0 ≤ (rowScatterDims N E C wf).start (ix2 e b) idx a + ((rowScatterDims N E C wf).window (ix2 e b) a : ℤ)
        ∧ (rowScatterDims N E C wf).start (ix2 e b) idx a + ((rowScatterDims N E C wf).window (ix2 e b) a : ℤ)
          < (((⟨2, ![N, C]⟩ : Shape).size a : ℕ) : ℤ) := by
      intro a
      match a with
      | ⟨0, _⟩ =>
        show 0 ≤ (rowScatterDims N E C wf).start (ix2 e b) idx (0 : Fin 2) + ((rowScatterDims N E C wf).window (ix2 e b) (0 : Fin 2) : ℤ)
          ∧ (rowScatterDims N E C wf).start (ix2 e b) idx (0 : Fin 2) + ((rowScatterDims N E C wf).window (ix2 e b) (0 : Fin 2) : ℤ) < ((N : ℕ) : ℤ)
        rw [p0, h0]
        exact ⟨by omega, by exact_mod_cast i.isLt⟩
      | ⟨1, _⟩ =>
        show 0 ≤ (rowScatterDims N E C wf).start (ix2 e b) idx (1 : Fin 2) + ((rowScatterDims N E C wf).window (ix2 e b) (1 : Fin 2) : ℤ)
          ∧ (rowScatterDims N E C wf).start (ix2 e b) idx (1 : Fin 2) + ((rowScatterDims N E C wf).window (ix2 e b) (1 : Fin 2) : ℤ) < ((C : ℕ) : ℤ)
        rw [p1]
        exact ⟨by omega, by exact_mod_cast b.isLt⟩
    rw [dif_pos hb]
    congr 1
    funext a
    refine Fin.ext ?_
    match a with
    | ⟨0, _⟩ =>
      show ((rowScatterDims N E C wf).start (ix2 e b) idx (0 : Fin 2) + ((rowScatterDims N E C wf).window (ix2 e b) (0 : Fin 2) : ℤ)).toNat = i.val
      rw [p0, h0]; simp
    | ⟨1, _⟩ =>
      show ((rowScatterDims N E C wf).start (ix2 e b) idx (1 : Fin 2) + ((rowScatterDims N E C wf).window (ix2 e b) (1 : Fin 2) : ℤ)).toNat = b.val
      rw [p1]; simp

/-- THE ACCUMULATING ROW SCATTER READ AT `(i, k)`, at the ideal values: the operand's entry plus the sum of the
    updates' entries `k` over the rows `e` whose index, read signed, is `i`. -/
theorem scatterAdd_rows_apply (x : (⟨2, ![N, C]⟩ : Shape).Idx → EReal) (upd : (⟨2, ![E, C]⟩ : Shape).Idx → EReal)
    (i : Fin N) (k : Fin C) :
    Ideal.hostScatterAdd (rowScatterDims N E C wf) x idx upd (ix2 i k)
      = x (ix2 i k) + ∑ e ∈ Finset.univ.filter (fun e : Fin E => (idx (ix2 e (0 : Fin 1))).toInt = (i.val : ℤ)), upd (ix2 e k) := by
  unfold Ideal.hostScatterAdd
  congr 1
  rw [Finset.sum_filter, sum_idx2, Finset.sum_filter]
  refine Finset.sum_congr rfl fun e _ => ?_
  simp only [rowScatter_resultIdx wf idx e _ i k]
  by_cases h : (idx (ix2 e (0 : Fin 1))).toInt = (i.val : ℤ)
  · simp [h]
  · simp [h]

end

end Cert.Gcn

end
-- ==== Proof.RefValue.lean ====
/-
  The reference computes the edge network `G`.

  Its two row gathers read the node table at the wrapped, clamped index words; the concatenation of the destination's
  and the source's features feeds ONE product with `W1`, whose sum over the 32 joined columns is the sum over the
  first sixteen (destination) plus the sum over the last sixteen (source) — a regrouping of a finite sum, which needs
  nothing of the terms; every other step is the same operation on both sides, a product's factors commuted.
-/
import proofs.«409358_j17729624998206_3_alg».proof.Proof.Gen.ReferenceIdeal.Read
import proofs.«409358_j17729624998206_3_alg».proof.Proof.EdgeSpec
import proofs.«409358_j17729624998206_3_alg».proof.Proof.LibRowGatherScatter

noncomputable section

namespace Cert.EdgeNet.RefSide

open Idealize.ShloMosaic Idealize.ShloMosaic.ValueIdx Cert.ReferenceIdeal Cert.ReferenceIdeal.Read
open scoped BigOperators

variable (x0 : (⟨S100000x16, .f32⟩ : BufTy).Contents (Elt Ideal)) (x1 : (⟨S2x3200000, .i32⟩ : BufTy).Contents (Elt Ideal))
  (x2 : (⟨S32x64, .f32⟩ : BufTy).Contents (Elt Ideal)) (x3 : (⟨S64, .f32⟩ : BufTy).Contents (Elt Ideal))
  (x4 : (⟨S64x2, .f32⟩ : BufTy).Contents (Elt Ideal)) (x5 : (⟨S2, .f32⟩ : BufTy).Contents (Elt Ideal))

/-! ## The index words -/

/-- The start index of the source gather for edge `e` is the wrapped word of row 0 of the index array. -/
theorem word_src (e : Fin 3200000) :
    val_main_v7 (F := Ideal) x1 (ix2 e (0 : Fin 1)) = wrapW (x1 (ix2 (0 : Fin 2) e)) := by
  rw [val_main_v7_apply, val_main_v6_apply, val_main_v3_apply, val_main_v5_apply, val_main_v2_apply, val_main_v4_apply,
    val_main_c_apply, val_main_c_0_apply, val_main_v1_apply, val_main_v0_apply]
  have hi : idx_main_v0 (idx_main_v1 (idx_main_v7 (ix2 e (0 : Fin 1)))) = ix2 (0 : Fin 2) e := by
    funext a; refine Fin.ext ?_
    match a with
    | ⟨0, _⟩ => rfl
    | ⟨1, _⟩ => exact Nat.mod_eq_of_lt e.isLt
  rw [hi]; rfl

/-- The start index of the destination gather for edge `e` is the wrapped word of row 1 of the index array. -/
theorem word_dst (e : Fin 3200000) :
    val_main_v16 (F := Ideal) x1 (ix2 e (0 : Fin 1)) = wrapW (x1 (ix2 (1 : Fin 2) e)) := by
  rw [val_main_v16_apply, val_main_v15_apply, val_main_v12_apply, val_main_v14_apply, val_main_v11_apply, val_main_v13_apply,
    val_main_c_1_apply, val_main_c_2_apply, val_main_v10_apply, val_main_v9_apply]
  have hi : idx_main_v9 (idx_main_v10 (idx_main_v16 (ix2 e (0 : Fin 1)))) = ix2 (1 : Fin 2) e := by
    funext a; refine Fin.ext ?_
    match a with
    | ⟨0, _⟩ => rfl
    | ⟨1, _⟩ => exact Nat.mod_eq_of_lt e.isLt
  rw [hi]; rfl

/-! ## The gathered rows and their concatenation -/

/-- The source gather at `(e, k)`: feature `k` of the source node of edge `e`. -/
theorem row_src (e : Fin 3200000) (k : Fin 16) :
    val_main_v8 (F := Ideal) x0 x1 (ix2 e k) = x0 (ix2 (node x1 0 e) k) := by
  unfold val_main_v8
  refine (Cert.Gcn.gather_rows_apply (N := 100000) (E := 3200000) (C := 16) (by decide)
    Facts₀.gather_S100000x16_S3200000x1_S3200000x16_1_0_n_n_0_1_116_wf x0 (val_main_v7 (F := Ideal) x1) e k).trans ?_
  exact congrArg (fun n => x0 (ix2 n k)) (clampRow_congr (word_src x1 e) _ _)

/-- The destination gather at `(e, k)`: feature `k` of the destination node of edge `e`. -/
theorem row_dst (e : Fin 3200000) (k : Fin 16) :
    val_main_v17 (F := Ideal) x0 x1 (ix2 e k) = x0 (ix2 (node x1 1 e) k) := by
  unfold val_main_v17
  refine (Cert.Gcn.gather_rows_apply (N := 100000) (E := 3200000) (C := 16) (by decide)
    Facts₀.gather_S100000x16_S3200000x1_S3200000x16_1_0_n_n_0_1_116_wf x0 (val_main_v16 (F := Ideal) x1) e k).trans ?_
  exact congrArg (fun n => x0 (ix2 n k)) (clampRow_congr (word_dst x1 e) _ _)

/-- The joined features at a column below sixteen: the destination's. -/
theorem joined_lo (e : Fin 3200000) (k : Fin 16) :
    val_main_v18 (F := Ideal) x0 x1 (ix2 e (⟨k.val, by omega⟩ : Fin 32)) = x0 (ix2 (node x1 1 e) k) := by
  unfold val_main_v18
  refine (concatenate_pair_apply_left (t := S3200000x32) (s₁ := S3200000x16) (s₂ := S3200000x16) (1 : Fin S3200000x32.rank) _ _ _ _ rfl (ix2 e k)
    (fun b => match b with | ⟨0, _⟩ => rfl | ⟨1, _⟩ => rfl)).trans ?_
  exact row_dst x0 x1 e k

/-- The joined features at column `16 + k`: the source's. -/
theorem joined_hi (e : Fin 3200000) (k : Fin 16) :
    val_main_v18 (F := Ideal) x0 x1 (ix2 e (⟨16 + k.val, by omega⟩ : Fin 32)) = x0 (ix2 (node x1 0 e) k) := by
  unfold val_main_v18
  refine (concatenate_pair_apply_right (t := S3200000x32) (s₁ := S3200000x16) (s₂ := S3200000x16) (1 : Fin S3200000x32.rank) _ _ _ _ rfl rfl (ix2 e k)
    (fun b hb => match b with | ⟨0, _⟩ => rfl | ⟨1, _⟩ => absurd rfl hb) (by show k.val + 16 = 16 + k.val; omega)).trans ?_
  exact row_src x0 x1 e k

/-! ## The layers -/

/-- A sum over thirty-two columns is the sum over the first sixteen plus the sum over the last sixteen. -/
theorem sum_split (f : Fin 32 → EReal) :
    ∑ k : Fin 32, f k = (∑ k : Fin 16, f ⟨k.val, by omega⟩) + ∑ k : Fin 16, f ⟨16 + k.val, by omega⟩ :=
  Fin.sum_univ_add (a := 16) (b := 16) f

/-- The reference's hidden layer is the network's. -/
theorem hidden_eq (e : Fin 3200000) (h : Fin 64) :
    val_main_v23 (F := Ideal) x0 x1 x2 x3 (ix2 e h) = hid x0 x1 x2 x3 e h := by
  rw [val_main_v23_apply, val_main_v22_apply, val_main_v19_apply, val_main_v21_apply, val_main_v20_apply,
    val_main_call0_v0_apply, val_main_call0_cst_apply, sum_split]
  unfold hid
  simp only [Ideal.maximumf_def, Ideal.addf_def, Ideal.ofBits_def]
  have e1 : ∀ k : Fin 16, val_main_v18 (F := Ideal) x0 x1 (lidx_main_v19 (ix2 e h) ⟨k.val, by omega⟩)
      * x2 (ridx_main_v19 (ix2 e h) ⟨k.val, by omega⟩) = x2 (ix2 ⟨k.val, by omega⟩ h) * x0 (ix2 (node x1 1 e) k) := by
    intro k
    have a : lidx_main_v19 (ix2 e h) (⟨k.val, by omega⟩ : Fin 32) = ix2 e (⟨k.val, by omega⟩ : Fin 32) := by
      funext a; match a with | ⟨0, _⟩ => rfl | ⟨1, _⟩ => rfl
    have b : ridx_main_v19 (ix2 e h) (⟨k.val, by omega⟩ : Fin 32) = ix2 (⟨k.val, by omega⟩ : Fin 32) h := by
      funext a; match a with | ⟨0, _⟩ => rfl | ⟨1, _⟩ => rfl
    rw [a, b, joined_lo, mul_comm]
  have e2 : ∀ k : Fin 16, val_main_v18 (F := Ideal) x0 x1 (lidx_main_v19 (ix2 e h) ⟨16 + k.val, by omega⟩)
      * x2 (ridx_main_v19 (ix2 e h) ⟨16 + k.val, by omega⟩) = x2 (ix2 ⟨16 + k.val, by omega⟩ h) * x0 (ix2 (node x1 0 e) k) := by
    intro k
    have a : lidx_main_v19 (ix2 e h) (⟨16 + k.val, by omega⟩ : Fin 32) = ix2 e (⟨16 + k.val, by omega⟩ : Fin 32) := by
      funext a; match a with | ⟨0, _⟩ => rfl | ⟨1, _⟩ => rfl
    have b : ridx_main_v19 (ix2 e h) (⟨16 + k.val, by omega⟩ : Fin 32) = ix2 (⟨16 + k.val, by omega⟩ : Fin 32) h := by
      funext a; match a with | ⟨0, _⟩ => rfl | ⟨1, _⟩ => rfl
    rw [a, b, joined_hi, mul_comm]
  have e3 : idx_main_v20 (idx_main_v21 (ix2 e h)) = ix1 h := by
    funext a; match a with | ⟨0, _⟩ => rfl
  rw [Finset.sum_congr rfl (fun k _ => e1 k), Finset.sum_congr rfl (fun k _ => e2 k), e3]

/-- The reference's two outputs per edge are the network's gate and scale. -/
theorem gate_eq (e : Fin 3200000) (j : Fin 2) :
    val_main_v27 (F := Ideal) x0 x1 x2 x3 x4 x5 (ix2 e j) = gate x0 x1 x2 x3 x4 x5 e j := by
  rw [val_main_v27_apply, val_main_v24_apply, val_main_v26_apply, val_main_v25_apply]
  unfold gate
  simp only [Ideal.addf_def]
  have e1 : ∀ h : Fin 64, val_main_v23 (F := Ideal) x0 x1 x2 x3 (lidx_main_v24 (ix2 e j) h) * x4 (ridx_main_v24 (ix2 e j) h)
      = x4 (ix2 h j) * hid x0 x1 x2 x3 e h := by
    intro h
    have a : lidx_main_v24 (ix2 e j) h = ix2 e h := by
      funext a; match a with | ⟨0, _⟩ => rfl | ⟨1, _⟩ => rfl
    have b : ridx_main_v24 (ix2 e j) h = ix2 h j := by
      funext a; match a with | ⟨0, _⟩ => rfl | ⟨1, _⟩ => rfl
    rw [a, b, hidden_eq, mul_comm]
  have e3 : idx_main_v25 (idx_main_v26 (ix2 e j)) = ix1 j := by
    funext a; match a with | ⟨0, _⟩ => rfl
  rw [Finset.sum_congr rfl (fun h _ => e1 h), e3]

/-- THE REFERENCE'S RESULT IS `G`. -/
theorem result_eq : val_main_v34 (F := Ideal) x0 x1 x2 x3 x4 x5 = G x0 x1 x2 x3 x4 x5 := by
  funext i
  obtain ⟨e, f, rfl⟩ : ∃ (e : Fin 3200000) (f : Fin 16), i = ix2 e f := ⟨i 0, i 1, eq_ix2 i⟩
  rw [val_main_v34_apply, val_main_v33_apply, val_main_v28_apply, val_main_v32_apply, val_main_v31_apply, val_main_v30_apply,
    val_main_v29_apply]
  have a0 : idx_main_v28 (idx_main_v33 (ix2 e f)) = ix2 e (0 : Fin 2) := by
    funext a; match a with | ⟨0, _⟩ => rfl | ⟨1, _⟩ => rfl
  have a1 : idx_main_v29 (idx_main_v30 (ix2 e f)) = ix2 e (1 : Fin 2) := by
    funext a; match a with | ⟨0, _⟩ => rfl | ⟨1, _⟩ => rfl
  rw [a0, a1, gate_eq, gate_eq, row_src, row_dst]
  rfl

end Cert.EdgeNet.RefSide

end
-- ==== Proof.LibColGather.lean ====
/-
  Columns of a table gathered by a column of integer indices, read at one element.

  The table has `C` rows of `N` entries; the indices are an `E × 1` column of machine integers. The gather of
  columns (what a take along the second axis lowers to: the first axis an offset axis kept whole, the second axis
  collapsed, the start index naming a column) reads, at `(k, e)`, the table's entry in row `k` of the column the
  index `e` names — the index read as a signed integer and clamped into `[0, N - 1]`.
-/
import Idealize.ShloMosaic.PureOps.Ideal
import Idealize.ShloMosaic.Lib.ValueIdx

noncomputable section

namespace Cert.ColGather

open Idealize.ShloMosaic Idealize.ShloMosaic.ValueIdx

/-- The dimension numbers of a column gather: operand `C × N`, start indices `E × 1`, result `C × E`. -/
abbrev colGatherDims (C N E : Nat)
    (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

/-- THE COLUMN GATHER READ AT `(k, e)`: row `k` of the column that index `e` names, read signed and clamped into
    `[0, N - 1]`. -/
theorem gather_cols_apply {α : Type} {C N E w : Nat} (hN : 0 < N)
    (wf : GatherDims.WF ⟨2, ![C, N]⟩ ⟨2, ![E, 1]⟩ ⟨2, ![C, E]⟩ [0] [1] [] [1] [] 1 ![C, 1])
    (x : (⟨2, ![C, N]⟩ : Shape).Idx → α) (idx : IVec ⟨2, ![E, 1]⟩ w) (k : Fin C) (e : Fin E) :
    Host.gather (colGatherDims C N E wf) x idx (ix2 k e)
      = x (ix2 k ⟨min (idx (ix2 e (0 : Fin 1))).toInt.toNat (N - 1), by omega⟩) := by
  unfold Host.gather
  congr 1
  funext a
  refine Fin.ext ?_
  show (colGatherDims C N E wf).start (ix2 k e) idx a + (colGatherDims C N E wf).batchCoord (ix2 k e) a
      + (colGatherDims C N E wf).offCoord (ix2 k e) a = _
  rw [GatherDims.batchCoord_eq_zero _ _ _ List.not_mem_nil]
  match a with
  | ⟨0, _⟩ =>
    show (colGatherDims C N E wf).start (ix2 k e) idx (0 : Fin 2) + 0
        + (colGatherDims C N E wf).offCoord (ix2 k e) (0 : Fin 2) = k.val
    have hs : (colGatherDims C N E wf).start (ix2 k e) idx (0 : Fin 2) = 0 := by
      unfold GatherDims.start
      rw [dif_neg (show (0 : Fin 2) ∉ ([1] : List (Fin 2)) from by decide)]
    have hm : (0 : Fin 2) ∈ (colGatherDims C N E wf).sKept :=
      (GatherDims.mem_sKept _ _).mpr ⟨show (0 : Fin 2) ∉ ([1] : List (Fin 2)) from by decide, List.not_mem_nil⟩
    rw [hs]
    unfold GatherDims.offCoord
    rw [dif_pos hm]
    simp only [Nat.zero_add]
    rfl
  | ⟨1, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 2) ∈ (colGatherDims C N E wf).startIndexMap from List.mem_singleton.mpr rfl)]
    have hsi : (colGatherDims C N E wf).siIdx (ix2 k e) ⟨List.idxOf (⟨1, by decide⟩ : Fin 2) (colGatherDims C N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Cert.ColGather

end
-- ==== Proof.LibReduceAndAll.lean ====
/-
  The converse of reading a `jnp.all` back: a `stablehlo.reduce` by `and` over `i1` words is 1 at a result index
  as soon as its initial value is 1 and every operand element that reduces into that index is 1 — a left fold of `and`
  that starts at 1 and meets only 1s stays at 1.
-/
import Idealize.ShloMosaic.Lib.ReduceAll

namespace Cert.Gcn

open Idealize.ShloMosaic

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a (List.mem_cons_self ..)
    have h11 : IntOp.andi (1#1 : BitVec 1) 1#1 = 1#1 := by decide
    rw [List.foldl_cons, ha, h11]
    exact foldl_andi_one f l fun n hn => h n (List.mem_cons_of_mem _ hn)

variable {s t u : Shape} {axes : List (Fin s.rank)}

/-- A reduce by `and` from 1 whose operand is 1 at every index reducing into `j` is 1 at `j`. -/
theorem reduce_andi_of_all (x : s.Idx → BitVec 1) (init : u.Idx → BitVec 1) (h : s.ReducesTo axes t) (hu : 0 < u.numel)
    (j : t.Idx) (hinit : init (Shape.Idx.first hu) = 1#1) (hx : ∀ i, h.drop i = j → x i = 1#1) :
    Host.reduce IntOp.andi x init h hu j = 1#1 := by
  rw [Host.reduce_eq_foldl, hinit]
  refine foldl_andi_one x _ fun i hi => hx i ?_
  rw [List.mem_filter] at hi
  simpa using hi.2

end Cert.Gcn
-- ==== Proof.EntryGather.lean ====
/-
  What the region finds in its first two windows' arrays: the two takes along the node axis of the transposed table.

  Each take wraps a negative index word, gathers the column the word names (the gather clamping it into the table) and
  keeps the gathered value only where the wrapped word lies inside the table, a fill value elsewhere. Under the range
  hypothesis on the words the test always passes, so window 0's array at `(k, e)` is feature `k` of the source node
  of edge `e`, and window 1's the same of its destination node. The entry contents are read one buffer at a time, each
  from the buffers it is computed from.
-/
import proofs.«409358_j17729624998206_3_alg».proof.Proof.Gen.KernelIdeal.Frame
import Idealize.ShloMosaic.Lib.StableHlo.Run
import Idealize.ShloMosaic.Lib.Pipeline.Value
import Idealize.ShloMosaic.Lib.ValueLayout
import Idealize.ShloMosaic.PureOps.Ideal
import proofs.«409358_j17729624998206_3_alg».proof.Proof.EdgeSpec
import proofs.«409358_j17729624998206_3_alg».proof.Proof.LibColGather
import proofs.«409358_j17729624998206_3_alg».proof.Proof.LibReduceAndAll

set_option maxRecDepth 16384

noncomputable section

namespace Cert.EdgeNet.Entry

open Idealize.ShloMosaic Idealize.ShloMosaic.TcCoe Idealize.ShloMosaic.StableHlo Idealize.ShloMosaic.ValueIdx
open Idealize.SL.Sem
open Cert.KernelIdeal
open Cert.KernelIdeal.Gen (V V0 hostOps0 hostOps0_1 hostOps0_2 hostOps0_3)
open Cert.KernelIdeal.Facts₀ Cert.KernelIdeal.Facts

variable {F : FTy → Type} [FloatOps F]

/-! ## The take, as the program spells it -/

/-- The start indices of a take: the index words, a negative one with the table's extent added, as a column. -/
def startIdx (idx : IVec S3200000 32) : IVec S3200000x1 32 :=
  broadcastInDim S3200000x1 ![0] bcast_S3200000_S3200000x1_0
    (select (cmpi .slt idx (broadcastInDim S3200000 ![] bcast_S_S3200000 (constantI S_ 32 0#32)))
      (addi idx (broadcastInDim S3200000 ![] bcast_S_S3200000 (constantI S_ 32 100000#32))) idx)

/-- Which start indices lie inside the table: at least `0` and at most `99999`. -/
def inTable (s : IVec S3200000x1 32) : IVec S3200000 1 :=
  Host.reduce IntOp.andi
    (andi
      (cmpi .sge s (broadcastInDim S3200000x1 ![] bcast_S_S3200000x1 (constantI S_ 32 0#32)))
      (cmpi .sle s (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- The take's last step: the gathered value where the start index lies inside the table, the fill value elsewhere. -/
def keepInside (ok : IVec S3200000 1) (g : FVec F S16x3200000 .f32) : FVec F S16x3200000 .f32 :=
  select (broadcastInDim S16x3200000 ![1] bcast_S3200000_S16x3200000_1 ok) g
    (broadcastInDim S16x3200000 ![] bcast_S_S16x3200000 (constant S_ .f32 0x7FC00000#32))

/-- The take of columns of the transposed table. -/
def takeCols (xT : FVec F S16x100000 .f32) (idx : IVec S3200000 32) : FVec F S16x3200000 .f32 :=
  keepInside (inTable (startIdx idx))
    (Host.gather gather_S16x100000_S3200000x1_S16x3200000_0_1_n_n_1_1_161 xT (startIdx idx))

section Launched
variable (m : (ℓ : Loc nD τ sig) → Buf (Elt F) ℓ)

/-- The node table transposed. -/
abbrev tableT (c : Dev nD) : FVec F S16x100000 .f32 :=
  transpose (s := S100000x16) S16x100000 [1, 0] (m ((c : Thread nD τ).loc main_arg0)) transposes_S100000x16_S16x100000_1_0

/-- Row `0` (the sources) of the index array as a vector. -/
abbrev words0 (c : Dev nD) : IVec S3200000 32 :=
  shapeCast (s := S1x3200000) S3200000
    (extractStridedSlice (s := S2x3200000) S1x3200000 ![0, 0] (m ((c : Thread nD τ).loc main_arg1)) slices_S2x3200000_S1x3200000_0_0)
    shapeCasts_S1x3200000_S3200000

/-- Row `1` (the destinations) of the index array as a vector. -/
abbrev words1 (c : Dev nD) : IVec S3200000 32 :=
  shapeCast (s := S1x3200000) S3200000
    (extractStridedSlice (s := S2x3200000) S1x3200000 ![1, 0] (m ((c : Thread nD τ).loc main_arg1)) slices_S2x3200000_S1x3200000_1_0)
    shapeCasts_S1x3200000_S3200000

/-- Opens the region-entry contents on both sides of a goal down to the launch contents; an operation of a called
    function, stated over typed references, is first read as the plain operation it is. -/
macro "open_entry" : tactic =>
  `(tactic| (dsimp only [V, V0]
             simp only [hostOps0, hostOps0_1, hostOps0_2, hostOps0_3, List.flatten_cons, List.flatten_nil, List.append_nil,
               List.cons_append, List.nil_append]
             dsimp only [TRef.binary, TRef.unary, TRef.nullary, TRef.ternary, TRef.toBuf, TRef.ofBuf, TRef.of, cast_eq]
             after_results_simp))

set_option maxHeartbeats 4000000 in
theorem entry_tableT (c : Dev nD) : V m c main_v0 = tableT m c := by
  open_entry <;> rfl

set_option maxHeartbeats 4000000 in
theorem entry_words0 (c : Dev nD) : V m c main_v2 = words0 m c := by
  open_entry <;> rfl

set_option maxHeartbeats 4000000 in
theorem entry_words1 (c : Dev nD) : V m c main_v4 = words1 m c := by
  open_entry <;> rfl

/-! ### The source take, buffer by buffer -/

set_option maxHeartbeats 4000000 in
theorem entry_start0 (c : Dev nD) : V m c main_call0_v5 = startIdx (V m c main_v2) := by
  unfold startIdx
  open_entry <;> rfl

set_option maxHeartbeats 4000000 in
theorem entry_ok0 (c : Dev nD) : V m c main_call0_v12 = inTable (V m c main_call0_v5) := by
  unfold inTable
  open_entry <;> rfl

set_option maxHeartbeats 4000000 in
theorem entry_gath0 (c : Dev nD) :
    V m c main_call0_v13 = Host.gather gather_S16x100000_S3200000x1_S16x3200000_0_1_n_n_1_1_161 (V m c main_v0) (V m c main_call0_v5) := by
  open_entry <;> rfl

set_option maxHeartbeats 4000000 in
theorem entry_take0 (c : Dev nD) : V m c main_v5 = keepInside (V m c main_call0_v12) (V m c main_call0_v13) := by
  unfold keepInside
  open_entry <;> rfl

/-- Window 0's array at the region's entry: the take at the source words. -/
theorem entry_src (c : Dev nD) : V m c main_v5 = takeCols (tableT m c) (words0 m c) := by
  rw [entry_take0, entry_ok0, entry_gath0, entry_start0, entry_words0, entry_tableT]
  rfl

/-! ### The destination take, buffer by buffer -/

set_option maxHeartbeats 4000000 in
theorem entry_start1 (c : Dev nD) : V m c main_call1_v5 = startIdx (V m c main_v4) := by
  unfold startIdx
  open_entry <;> rfl

set_option maxHeartbeats 4000000 in
theorem entry_ok1 (c : Dev nD) : V m c main_call1_v12 = inTable (V m c main_call1_v5) := by
  unfold inTable
  open_entry <;> rfl

set_option maxHeartbeats 4000000 in
theorem entry_gath1 (c : Dev nD) :
    V m c main_call1_v13 = Host.gather gather_S16x100000_S3200000x1_S16x3200000_0_1_n_n_1_1_161 (V m c main_v0) (V m c main_call1_v5) := by
  open_entry <;> rfl

set_option maxHeartbeats 4000000 in
theorem entry_take1 (c : Dev nD) : V m c main_v6 = keepInside (V m c main_call1_v12) (V m c main_call1_v13) := by
  unfold keepInside
  open_entry <;> rfl

/-- Window 1's array at the region's entry: the take at the destination words. -/
theorem entry_dst (c : Dev nD) : V m c main_v6 = takeCols (tableT m c) (words1 m c) := by
  rw [entry_take1, entry_ok1, entry_gath1, entry_start1, entry_words1, entry_tableT]
  rfl

end Launched

/-! ## The take read at an index -/

/-- The start index of edge `e` is its wrapped word. -/
theorem startIdx_apply (idx : IVec S3200000 32) (e : Fin 3200000) :
    startIdx idx (ix2 e (0 : Fin 1)) = wrapW (idx (ix1 e)) := by
  unfold startIdx
  refine (broadcastInDim_apply _ bcast_S3200000_S3200000x1_0 _ _ (ix1 e) (fun a => match a with
    | ⟨0, _⟩ => by show e.val = if (3200000 : Nat) = 1 then 0 else e.val; rw [if_neg (by decide)])).trans ?_
  rfl

/-- With every word in `[-100000, 100000)` every start index lies inside the table. -/
theorem inTable_startIdx (idx : IVec S3200000 32)
    (hr : ∀ e : Fin 3200000, IntOp.cmpi .sge (idx (ix1 e)) 4294867296#32 = 1#1 ∧ IntOp.cmpi .slt (idx (ix1 e)) 100000#32 = 1#1)
    (e : Fin 3200000) : inTable (startIdx idx) (ix1 e) = 1#1 := by
  unfold inTable
  refine Cert.Gcn.reduce_andi_of_all _ _ _ _ _ rfl (fun i _ => ?_)
  obtain ⟨e', z, rfl⟩ : ∃ (e' : Fin 3200000) (z : Fin 1), i = ix2 e' z := ⟨i 0, i 1, eq_ix2 i⟩
  obtain rfl : z = 0 := Subsingleton.elim _ _
  show IntOp.andi (IntOp.cmpi .sge (startIdx idx (ix2 e' (0 : Fin 1))) 0#32)
    (IntOp.cmpi .sle (startIdx idx (ix2 e' (0 : Fin 1))) 99999#32) = 1#1
  rw [startIdx_apply]
  exact IntOp.andi_eq_one.2 (wrapW_in_table _ (hr e').1 (hr e').2)

/-- With every word in `[-100000, 100000)` the take at `(k, e)` is the table's row `k` at the column the wrapped word
    of edge `e` names. -/
theorem takeCols_apply (xT : FVec Ideal S16x100000 .f32) (idx : IVec S3200000 32)
    (hr : ∀ e : Fin 3200000, IntOp.cmpi .sge (idx (ix1 e)) 4294867296#32 = 1#1 ∧ IntOp.cmpi .slt (idx (ix1 e)) 100000#32 = 1#1)
    (k : Fin 16) (e : Fin 3200000) :
    takeCols xT idx (ix2 k e) = xT (ix2 k ⟨min (wrapW (idx (ix1 e))).toInt.toNat (100000 - 1), by omega⟩) := by
  unfold takeCols keepInside
  rw [select_apply]
  have hmask : (broadcastInDim S16x3200000 ![1] bcast_S3200000_S16x3200000_1 (inTable (startIdx idx))) (ix2 k e) = 1#1 := by
    refine (broadcastInDim_apply _ bcast_S3200000_S16x3200000_1 _ _ (ix1 e) (fun a => match a with
      | ⟨0, _⟩ => by show e.val = if (3200000 : Nat) = 1 then 0 else e.val; rw [if_neg (by decide)])).trans ?_
    exact inTable_startIdx idx hr e
  rw [hmask, select_one]
  refine (Cert.ColGather.gather_cols_apply (C := 16) (N := 100000) (E := 3200000) (by decide)
    gather_S16x100000_S3200000x1_S16x3200000_0_1_n_n_1_1_161_wf xT (startIdx idx) k e).trans ?_
  exact congrArg (fun n => xT (ix2 k n)) (clampRow_congr (startIdx_apply idx e) _ _)

end Cert.EdgeNet.Entry

end
-- ==== Proof.EntryWeights.lean ====
/-
  What the region finds in the arrays of windows 2 to 6: the weights and the biases, re-laid.

  Window 2 holds the first sixteen rows of `W1` transposed (the destination's weights), window 3 the last sixteen rows
  transposed (the source's), window 5 `W2` transposed, windows 4 and 6 the biases as columns; a change of float
  format is the identity at the ideal values.
-/
import proofs.«409358_j17729624998206_3_alg».proof.Proof.Gen.KernelIdeal.Frame
import Idealize.ShloMosaic.Lib.StableHlo.Run
import Idealize.ShloMosaic.Lib.Pipeline.Value
import Idealize.ShloMosaic.Lib.ValueLayout
import Idealize.ShloMosaic.PureOps.Ideal

set_option maxRecDepth 16384

noncomputable section

namespace Cert.EdgeNet.Entry

open Idealize.ShloMosaic Idealize.ShloMosaic.TcCoe Idealize.ShloMosaic.StableHlo Idealize.ShloMosaic.ValueIdx
open Idealize.SL.Sem
open Cert.KernelIdeal
open Cert.KernelIdeal.Gen (V V0 hostOps0 hostOps0_1 hostOps0_2 hostOps0_3)
open Cert.KernelIdeal.Facts₀ Cert.KernelIdeal.Facts

variable {F : FTy → Type} [FloatOps F]

/-! ## The re-laid weights and biases, as the program spells them -/

/-- Sixteen rows of `W1` from row `o` on, transposed, in the matrix unit's format. -/
def w1Part (o : Nat) (hs : S32x64.Slices ![o, 0] S16x64) (W1 : FVec F S32x64 .f32) : FVec F S64x16 .bf16 :=
  truncf .bf16 (transpose (s := S16x64) S64x16 [1, 0] (extractStridedSlice (s := S32x64) S16x64 ![o, 0] W1 hs)
    transposes_S16x64_S64x16_1_0) bitsLt_bf16_f32

/-- `W2` transposed, in the matrix unit's format. -/
def w2T (W2 : FVec F S64x2 .f32) : FVec F S2x64 .bf16 :=
  truncf .bf16 (transpose (s := S64x2) S2x64 [1, 0] W2 transposes_S64x2_S2x64_1_0) bitsLt_bf16_f32

section Launched
variable (m : (ℓ : Loc nD τ sig) → Buf (Elt F) ℓ)

set_option maxHeartbeats 4000000 in
theorem entry_wDst (c : Dev nD) :
    V m c main_v9 = w1Part 0 slices_S32x64_S16x64_0_0 (m ((c : Thread nD τ).loc main_arg2)) := by
  dsimp only [V, V0]
  simp only [hostOps0, hostOps0_1, hostOps0_2, hostOps0_3, List.flatten_cons, List.flatten_nil, List.append_nil,
    List.cons_append, List.nil_append]
  after_results_simp
  rfl

set_option maxHeartbeats 4000000 in
theorem entry_wSrc (c : Dev nD) :
    V m c main_v12 = w1Part 16 slices_S32x64_S16x64_16_0 (m ((c : Thread nD τ).loc main_arg2)) := by
  dsimp only [V, V0]
  simp only [hostOps0, hostOps0_1, hostOps0_2, hostOps0_3, List.flatten_cons, List.flatten_nil, List.append_nil,
    List.cons_append, List.nil_append]
  after_results_simp
  rfl

set_option maxHeartbeats 4000000 in
theorem entry_w2 (c : Dev nD) : V m c main_v14 = w2T (m ((c : Thread nD τ).loc main_arg4)) := by
  dsimp only [V, V0]
  simp only [hostOps0, hostOps0_1, hostOps0_2, hostOps0_3, List.flatten_cons, List.flatten_nil, List.append_nil,
    List.cons_append, List.nil_append]
  after_results_simp
  rfl

set_option maxHeartbeats 4000000 in
theorem entry_b1 (c : Dev nD) :
    V m c main_v15 = shapeCast (s := S64) S64x1 (m ((c : Thread nD τ).loc main_arg3)) shapeCasts_S64_S64x1 := by
  dsimp only [V, V0]
  simp only [hostOps0, hostOps0_1, hostOps0_2, hostOps0_3, List.flatten_cons, List.flatten_nil, List.append_nil,
    List.cons_append, List.nil_append]
  after_results_simp
  rfl

set_option maxHeartbeats 4000000 in
theorem entry_b2 (c : Dev nD) :
    V m c main_v16 = shapeCast (s := S2) S2x1 (m ((c : Thread nD τ).loc main_arg5)) shapeCasts_S2_S2x1 := by
  dsimp only [V, V0]
  simp only [hostOps0, hostOps0_1, hostOps0_2, hostOps0_3, List.flatten_cons, List.flatten_nil, List.append_nil,
    List.cons_append, List.nil_append]
  after_results_simp
  rfl

end Launched

/-! ## Read at an index, at the ideal values -/

theorem w1Part_apply (o : Nat) (hs : S32x64.Slices ![o, 0] S16x64) (ho : o + 16 ≤ 32) (W1 : FVec Ideal S32x64 .f32)
    (h : Fin 64) (k : Fin 16) :
    w1Part o hs W1 (ix2 h k) = W1 (ix2 ⟨o + k.val, by omega⟩ h) := by
  unfold w1Part
  rw [truncf_apply, transpose_ix2_apply]
  exact extractStridedSlice_apply _ _ _ _ (ix2 ⟨o + k.val, by omega⟩ h) (fun a => match a with
    | ⟨0, _⟩ => rfl
    | ⟨1, _⟩ => by show h.val = 0 + h.val; omega)

theorem w2T_apply (W2 : FVec Ideal S64x2 .f32) (j : Fin 2) (h : Fin 64) : w2T W2 (ix2 j h) = W2 (ix2 h j) := by
  unfold w2T
  rw [truncf_apply, transpose_ix2_apply]

theorem b1col_apply (b1 : FVec Ideal S64 .f32) (h : Fin 64) :
    shapeCast (s := S64) S64x1 b1 shapeCasts_S64_S64x1 (ix2 h (0 : Fin 1)) = b1 (ix1 h) :=
  shapeCast_apply b1 shapeCasts_S64_S64x1 _ (ix1 h)
    (by rewrite [Shape.rowMajor_val_two, Shape.rowMajor_val_one]; show h.val = h.val * 1 + 0; omega)

theorem b2col_apply (b2 : FVec Ideal S2 .f32) (j : Fin 2) :
    shapeCast (s := S2) S2x1 b2 shapeCasts_S2_S2x1 (ix2 j (0 : Fin 1)) = b2 (ix1 j) :=
  shapeCast_apply b2 shapeCasts_S2_S2x1 _ (ix1 j)
    (by rewrite [Shape.rowMajor_val_two, Shape.rowMajor_val_one]; show j.val = j.val * 1 + 0; omega)

end Cert.EdgeNet.Entry

end
-- ==== Proof.EntryAt.lean ====
/-
  The seven input windows' arrays at the region's entry, read at an index, at the ideal values.

  With every index word in `[-100000, 100000)`: window 0's array at `(k, e)` is feature `k` of the source node of edge
  `e`, window 1's the same of the destination node; windows 2 and 3 hold the two halves of `W1` transposed, window 5
  `W2` transposed, windows 4 and 6 the biases as columns.
-/
import proofs.«409358_j17729624998206_3_alg».proof.Proof.EntryGather
import proofs.«409358_j17729624998206_3_alg».proof.Proof.EntryWeights

set_option maxRecDepth 16384

noncomputable section

namespace Cert.EdgeNet.Entry

open Idealize.ShloMosaic Idealize.ShloMosaic.TcCoe Idealize.ShloMosaic.ValueIdx
open Idealize.SL.Sem
open Cert.KernelIdeal
open Cert.KernelIdeal.Gen (V)
open Cert.KernelIdeal.Facts₀ Cert.KernelIdeal.Facts

variable (m : (ℓ : Loc nD τ sig) → Buf (Elt Ideal) ℓ) (c : Dev nD)

/-- The node table as launched. -/
abbrev aX : SX.Idx → EReal := m ((c : Thread nD τ).loc main_arg0)
/-- The index array as launched. -/
abbrev aE : SEdges.Idx → BitVec 32 := m ((c : Thread nD τ).loc main_arg1)
/-- The first layer's weights as launched. -/
abbrev aW1 : SW1.Idx → EReal := m ((c : Thread nD τ).loc main_arg2)
/-- The first layer's bias as launched. -/
abbrev aB1 : SB1.Idx → EReal := m ((c : Thread nD τ).loc main_arg3)
/-- The second layer's weights as launched. -/
abbrev aW2 : SW2.Idx → EReal := m ((c : Thread nD τ).loc main_arg4)
/-- The second layer's bias as launched. -/
abbrev aB2 : SB2.Idx → EReal := m ((c : Thread nD τ).loc main_arg5)

/-- Entry `e` of row `r` of the index array, through the slice and the reshape. -/
theorem words0_apply (e : Fin 3200000) : words0 m c (ix1 e) = aE m c (ix2 (0 : Fin 2) e) := by
  refine (shapeCast_apply _ shapeCasts_S1x3200000_S3200000 _ (ix2 (0 : Fin 1) e)
    (by rewrite [Shape.rowMajor_val_two, Shape.rowMajor_val_one]; show 0 * 3200000 + e.val = e.val; omega)).trans ?_
  exact extractStridedSlice_apply _ _ _ _ (ix2 (0 : Fin 2) e) (fun a => match a with
    | ⟨0, _⟩ => rfl
    | ⟨1, _⟩ => by show e.val = 0 + e.val; omega)

theorem words1_apply (e : Fin 3200000) : words1 m c (ix1 e) = aE m c (ix2 (1 : Fin 2) e) := by
  refine (shapeCast_apply _ shapeCasts_S1x3200000_S3200000 _ (ix2 (0 : Fin 1) e)
    (by rewrite [Shape.rowMajor_val_two, Shape.rowMajor_val_one]; show 0 * 3200000 + e.val = e.val; omega)).trans ?_
  exact extractStridedSlice_apply _ _ _ _ (ix2 (1 : Fin 2) e) (fun a => match a with
    | ⟨0, _⟩ => rfl
    | ⟨1, _⟩ => by show e.val = 0 + e.val; omega)

section Gathers
variable (hr : ∀ i : SEdges.Idx, IntOp.cmpi .sge (aE m c i) 4294867296#32 = 1#1 ∧ IntOp.cmpi .slt (aE m c i) 100000#32 = 1#1)
include hr

/-- Window 0's array at `(k, e)`: feature `k` of the source node of edge `e`. -/
theorem src_at (k : Fin 16) (e : Fin 3200000) :
    (V m c main_v5 : S16x3200000.Idx → EReal) (ix2 k e) = aX m c (ix2 (node (aE m c) 0 e) k) := by
  rw [entry_src]
  refine (takeCols_apply (tableT m c) (words0 m c) (fun e' => by rw [words0_apply]; exact hr _) k e).trans ?_
  refine (transpose_ix2_apply _ _ _ _).trans ?_
  exact congrArg (fun n => aX m c (ix2 n k)) (clampRow_congr (congrArg wrapW (words0_apply m c e)) _ _)

/-- Window 1's array at `(k, e)`: feature `k` of the destination node of edge `e`. -/
theorem dst_at (k : Fin 16) (e : Fin 3200000) :
    (V m c main_v6 : S16x3200000.Idx → EReal) (ix2 k e) = aX m c (ix2 (node (aE m c) 1 e) k) := by
  rw [entry_dst]
  refine (takeCols_apply (tableT m c) (words1 m c) (fun e' => by rw [words1_apply]; exact hr _) k e).trans ?_
  refine (transpose_ix2_apply _ _ _ _).trans ?_
  exact congrArg (fun n => aX m c (ix2 n k)) (clampRow_congr (congrArg wrapW (words1_apply m c e)) _ _)

end Gathers

/-- Window 2's array at `(h, k)`: the destination's weight `W1[k, h]`. -/
theorem wDst_at (h : Fin 64) (k : Fin 16) :
    (V m c main_v9 : S64x16.Idx → EReal) (ix2 h k) = aW1 m c (ix2 ⟨k.val, by omega⟩ h) := by
  rw [entry_wDst]
  refine (w1Part_apply 0 _ (by omega) _ h k).trans ?_
  exact congrArg (fun n => aW1 m c (ix2 n h)) (Fin.ext (by show 0 + k.val = k.val; omega))

/-- Window 3's array at `(h, k)`: the source's weight `W1[16 + k, h]`. -/
theorem wSrc_at (h : Fin 64) (k : Fin 16) :
    (V m c main_v12 : S64x16.Idx → EReal) (ix2 h k) = aW1 m c (ix2 ⟨16 + k.val, by omega⟩ h) := by
  rw [entry_wSrc]
  exact w1Part_apply 16 _ (by omega) _ h k

/-- Window 5's array at `(j, h)`: `W2[h, j]`. -/
theorem w2_at (j : Fin 2) (h : Fin 64) :
    (V m c main_v14 : S2x64.Idx → EReal) (ix2 j h) = aW2 m c (ix2 h j) := by
  rw [entry_w2]
  exact w2T_apply _ j h

/-- Window 4's array at `(h, 0)`: `b1[h]`. -/
theorem b1_at (h : Fin 64) :
    (V m c main_v15 : S64x1.Idx → EReal) (ix2 h (0 : Fin 1)) = aB1 m c (ix1 h) := by
  rw [entry_b1]
  exact b1col_apply _ h

/-- Window 6's array at `(j, 0)`: `b2[j]`. -/
theorem b2_at (j : Fin 2) :
    (V m c main_v16 : S2x1.Idx → EReal) (ix2 j (0 : Fin 1)) = aB2 m c (ix1 j) := by
  rw [entry_b2]
  exact b2col_apply _ j

end Cert.EdgeNet.Entry

end
-- ==== Proof.BlockValue.lean ====
/-
  What one grid point stores, read at an index of its block.

  From the source block `xs`, the destination block `xd` (both features × edges), the two halves of the first layer's
  weights `wd`, `ws` (hidden × features), the second layer's weights `w2` (outputs × hidden) and the biases as
  columns, the body computes per edge `q` of the block
      hidB h q  = max (Σ_k wd[h, k] · xd[k, q] + Σ_k ws[h, k] · xs[k, q] + b1[h]) 0
      gateB j q = Σ_h w2[j, h] · hidB h q + b2[j]
  and stores `gateB 0 q · (xd[f, q] − gateB 1 q · xs[f, q])` at `(f, q)`. A matrix product into a zero accumulator is
  the plain sum over the contracted axis, and a change of float format is the identity.
-/
import proofs.«409358_j17729624998206_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.EdgeNet.Block

open Idealize.ShloMosaic Idealize.ShloMosaic.ValueIdx Cert.KernelIdeal
open Cert.KernelIdeal.Gen (k0_pay1)
open scoped BigOperators

/-! ## The first layer's products: hidden × features times features × edges -/

theorem lhs1_0 (i : S64x25600.Idx) (q : dot_S64x16_S16x25600_S64x25600_1_0_0_1_n_n.contr.Idx) :
    (dot_S64x16_S16x25600_S64x25600_1_0_0_1_n_n.lhsIdx i q 0).val = (i 0).val := by
  unfold DotDims.lhsIdx
  rw [dif_neg (show ¬(0 : Fin S64x16.rank) ∈ dot_S64x16_S16x25600_S64x25600_1_0_0_1_n_n.lhsBatch by decide),
    dif_pos (show (0 : Fin S64x16.rank) ∈ dot_S64x16_S16x25600_S64x25600_1_0_0_1_n_n.lhsNonContracting by decide)]
  rfl
theorem lhs1_1 (i : S64x25600.Idx) (q : dot_S64x16_S16x25600_S64x25600_1_0_0_1_n_n.contr.Idx) :
    (dot_S64x16_S16x25600_S64x25600_1_0_0_1_n_n.lhsIdx i q 1).val = (q ⟨0, by decide⟩).val :=
  dot_S64x16_S16x25600_S64x25600_1_0_0_1_n_n.lhsIdx_val_of_single rfl i q
theorem rhs1_0 (i : S64x25600.Idx) (q : dot_S64x16_S16x25600_S64x25600_1_0_0_1_n_n.contr.Idx) :
    (dot_S64x16_S16x25600_S64x25600_1_0_0_1_n_n.rhsIdx i q 0).val = (q ⟨0, by decide⟩).val :=
  dot_S64x16_S16x25600_S64x25600_1_0_0_1_n_n.rhsIdx_val_of_single rfl i q
theorem rhs1_1 (i : S64x25600.Idx) (q : dot_S64x16_S16x25600_S64x25600_1_0_0_1_n_n.contr.Idx) :
    (dot_S64x16_S16x25600_S64x25600_1_0_0_1_n_n.rhsIdx i q 1).val = (i 1).val := by
  unfold DotDims.rhsIdx
  rw [dif_neg (show ¬(1 : Fin S16x25600.rank) ∈ dot_S64x16_S16x25600_S64x25600_1_0_0_1_n_n.rhsBatch by decide),
    dif_pos (show (1 : Fin S16x25600.rank) ∈ dot_S64x16_S16x25600_S64x25600_1_0_0_1_n_n.rhsNonContracting by decide)]
  rfl

/-- A first-layer product into the zero accumulator at `(h, q)`: the sum over the sixteen features. -/
theorem mm1_apply (A : FVec Ideal S64x16 .bf16) (B : FVec Ideal S16x25600 .bf16) (h : Fin 64) (q : Fin 25600) :
    matmul dot_S64x16_S16x25600_S64x25600_1_0_0_1_n_n none A B (constant S64x25600 .f32 0x00000000#32) (ix2 h q)
      = ∑ k : Fin 16, A (ix2 h k) * B (ix2 k q) := by
  simp only [matmul]
  rw [Ideal.matmul_constant_zero_apply,
    ← Equiv.sum_comp (contrEquiv1 dot_S64x16_S16x25600_S64x25600_1_0_0_1_n_n 16 rfl rfl).symm]
  refine Finset.sum_congr rfl fun k _ => ?_
  have hk := contrEquiv1_symm_val dot_S64x16_S16x25600_S64x25600_1_0_0_1_n_n 16 rfl rfl k
  have el : dot_S64x16_S16x25600_S64x25600_1_0_0_1_n_n.lhsIdx (ix2 h q)
      ((contrEquiv1 dot_S64x16_S16x25600_S64x25600_1_0_0_1_n_n 16 rfl rfl).symm k) = ix2 h k :=
    funext fun a => Fin.ext (by
      match a with
      | ⟨0, _⟩ => exact lhs1_0 _ _
      | ⟨1, _⟩ => exact (lhs1_1 _ _).trans hk)
  have er : dot_S64x16_S16x25600_S64x25600_1_0_0_1_n_n.rhsIdx (ix2 h q)
      ((contrEquiv1 dot_S64x16_S16x25600_S64x25600_1_0_0_1_n_n 16 rfl rfl).symm k) = ix2 k q :=
    funext fun a => Fin.ext (by
      match a with
      | ⟨0, _⟩ => exact (rhs1_0 _ _).trans hk
      | ⟨1, _⟩ => exact rhs1_1 _ _)
  rw [el, er]

/-! ## The second layer's product: outputs × hidden times hidden × edges -/

theorem lhs2_0 (i : S2x25600.Idx) (q : dot_S2x64_S64x25600_S2x25600_1_0_0_1_n_n.contr.Idx) :
    (dot_S2x64_S64x25600_S2x25600_1_0_0_1_n_n.lhsIdx i q 0).val = (i 0).val := by
  unfold DotDims.lhsIdx
  rw [dif_neg (show ¬(0 : Fin S2x64.rank) ∈ dot_S2x64_S64x25600_S2x25600_1_0_0_1_n_n.lhsBatch by decide),
    dif_pos (show (0 : Fin S2x64.rank) ∈ dot_S2x64_S64x25600_S2x25600_1_0_0_1_n_n.lhsNonContracting by decide)]
  rfl
theorem lhs2_1 (i : S2x25600.Idx) (q : dot_S2x64_S64x25600_S2x25600_1_0_0_1_n_n.contr.Idx) :
    (dot_S2x64_S64x25600_S2x25600_1_0_0_1_n_n.lhsIdx i q 1).val = (q ⟨0, by decide⟩).val :=
  dot_S2x64_S64x25600_S2x25600_1_0_0_1_n_n.lhsIdx_val_of_single rfl i q
theorem rhs2_0 (i : S2x25600.Idx) (q : dot_S2x64_S64x25600_S2x25600_1_0_0_1_n_n.contr.Idx) :
    (dot_S2x64_S64x25600_S2x25600_1_0_0_1_n_n.rhsIdx i q 0).val = (q ⟨0, by decide⟩).val :=
  dot_S2x64_S64x25600_S2x25600_1_0_0_1_n_n.rhsIdx_val_of_single rfl i q
theorem rhs2_1 (i : S2x25600.Idx) (q : dot_S2x64_S64x25600_S2x25600_1_0_0_1_n_n.contr.Idx) :
    (dot_S2x64_S64x25600_S2x25600_1_0_0_1_n_n.rhsIdx i q 1).val = (i 1).val := by
  unfold DotDims.rhsIdx
  rw [dif_neg (show ¬(1 : Fin S64x25600.rank) ∈ dot_S2x64_S64x25600_S2x25600_1_0_0_1_n_n.rhsBatch by decide),
    dif_pos (show (1 : Fin S64x25600.rank) ∈ dot_S2x64_S64x25600_S2x25600_1_0_0_1_n_n.rhsNonContracting by decide)]
  rfl

/-- The second-layer product into the zero accumulator at `(j, q)`: the sum over the sixty-four hidden units. -/
theorem mm2_apply (A : FVec Ideal S2x64 .bf16) (B : FVec Ideal S64x25600 .bf16) (j : Fin 2) (q : Fin 25600) :
    matmul dot_S2x64_S64x25600_S2x25600_1_0_0_1_n_n none A B (constant S2x25600 .f32 0x00000000#32) (ix2 j q)
      = ∑ h : Fin 64, A (ix2 j h) * B (ix2 h q) := by
  simp only [matmul]
  rw [Ideal.matmul_constant_zero_apply,
    ← Equiv.sum_comp (contrEquiv1 dot_S2x64_S64x25600_S2x25600_1_0_0_1_n_n 64 rfl rfl).symm]
  refine Finset.sum_congr rfl fun k _ => ?_
  have hk := contrEquiv1_symm_val dot_S2x64_S64x25600_S2x25600_1_0_0_1_n_n 64 rfl rfl k
  have el : dot_S2x64_S64x25600_S2x25600_1_0_0_1_n_n.lhsIdx (ix2 j q)
      ((contrEquiv1 dot_S2x64_S64x25600_S2x25600_1_0_0_1_n_n 64 rfl rfl).symm k) = ix2 j k :=
    funext fun a => Fin.ext (by
      match a with
      | ⟨0, _⟩ => exact lhs2_0 _ _
      | ⟨1, _⟩ => exact (lhs2_1 _ _).trans hk)
  have er : dot_S2x64_S64x25600_S2x25600_1_0_0_1_n_n.rhsIdx (ix2 j q)
      ((contrEquiv1 dot_S2x64_S64x25600_S2x25600_1_0_0_1_n_n 64 rfl rfl).symm k) = ix2 k q :=
    funext fun a => Fin.ext (by
      match a with
      | ⟨0, _⟩ => exact (rhs2_0 _ _).trans hk
      | ⟨1, _⟩ => exact rhs2_1 _ _)
  rw [el, er]

/-! ## The broadcasts and the two row slices -/

/-- A column of sixty-four broadcast along the edges. -/
theorem bcast64_apply {α : Type} (v : S64x1.Idx → α) (hb : S64x1.Broadcasts S64x25600) (h : Fin 64) (q : Fin 25600) :
    broadcastTo S64x25600 v hb (ix2 h q) = v (ix2 h (0 : Fin 1)) :=
  broadcastTo_apply v hb _ (ix2 h (0 : Fin 1)) (fun a => match a with
    | ⟨0, _⟩ => by show h.val = if (64 : Nat) = 1 then 0 else h.val; rw [if_neg (by decide)]
    | ⟨1, _⟩ => by show 0 = if (1 : Nat) = 1 then 0 else q.val; rw [if_pos rfl])

/-- A column of two broadcast along the edges. -/
theorem bcast2_apply {α : Type} (v : S2x1.Idx → α) (hb : S2x1.Broadcasts S2x25600) (j : Fin 2) (q : Fin 25600) :
    broadcastTo S2x25600 v hb (ix2 j q) = v (ix2 j (0 : Fin 1)) :=
  broadcastTo_apply v hb _ (ix2 j (0 : Fin 1)) (fun a => match a with
    | ⟨0, _⟩ => by show j.val = if (2 : Nat) = 1 then 0 else j.val; rw [if_neg (by decide)]
    | ⟨1, _⟩ => by show 0 = if (1 : Nat) = 1 then 0 else q.val; rw [if_pos rfl])

/-- A row over the edges broadcast down the sixteen features. -/
theorem bcast16_apply {α : Type} (v : S1x25600.Idx → α) (hb : S1x25600.Broadcasts S16x25600) (f : Fin 16) (q : Fin 25600) :
    broadcastTo S16x25600 v hb (ix2 f q) = v (ix2 (0 : Fin 1) q) :=
  broadcastTo_apply v hb _ (ix2 (0 : Fin 1) q) (fun a => match a with
    | ⟨0, _⟩ => by show 0 = if (1 : Nat) = 1 then 0 else f.val; rw [if_pos rfl]
    | ⟨1, _⟩ => by show q.val = if (25600 : Nat) = 1 then 0 else q.val; rw [if_neg (by decide)])

/-- Row `o` of a two-row array, as a one-row array. -/
theorem row_apply {α : Type} (o : Nat) (ho : o < 2) (v : S2x25600.Idx → α) (hs : S2x25600.Slices ![o, 0] S1x25600) (q : Fin 25600) :
    extractStridedSlice S1x25600 ![o, 0] v hs (ix2 (0 : Fin 1) q) = v (ix2 ⟨o, ho⟩ q) :=
  extractStridedSlice_apply _ v hs _ (ix2 ⟨o, ho⟩ q) (fun a => match a with
    | ⟨0, _⟩ => rfl
    | ⟨1, _⟩ => by show q.val = 0 + q.val; omega)

/-! ## The stored value -/

section
variable (xs xd : Vec Ideal S16x25600 .f32) (wd ws : Vec Ideal S64x16 .bf16) (b1c : Vec Ideal S64x1 .f32)
  (w2 : Vec Ideal S2x64 .bf16) (b2c : Vec Ideal S2x1 .f32)

/-- The hidden layer of edge `q` of the block. -/
def hidB (h : Fin 64) (q : Fin 25600) : EReal :=
  max ((∑ k : Fin 16, wd (ix2 h k) * xd (ix2 k q)) + (∑ k : Fin 16, ws (ix2 h k) * xs (ix2 k q)) + b1c (ix2 h (0 : Fin 1)))
    (Ideal.ofBits .f32 0x00000000#32)

/-- The two outputs of the network for edge `q` of the block. -/
def gateB (j : Fin 2) (q : Fin 25600) : EReal :=
  (∑ h : Fin 64, w2 (ix2 j h) * hidB xs xd wd ws b1c h q) + b2c (ix2 j (0 : Fin 1))

/-- THE STORED VALUE AT `(f, q)`. -/
theorem pay_apply (f : Fin 16) (q : Fin 25600) :
    k0_pay1 (F := Ideal) xs xd wd ws b1c w2 b2c (ix2 f q)
      = gateB xs xd wd ws b1c w2 b2c 0 q * (xd (ix2 f q) - gateB xs xd wd ws b1c w2 b2c 1 q * xs (ix2 f q)) := by
  unfold k0_pay1 gateB hidB
  simp only [shapeCast_self, mulf_apply, subf_apply, addf_apply, maximumf_apply, truncf_apply, broadcast_apply,
    bcast16_apply, bcast64_apply, bcast2_apply, row_apply 0 (by decide), row_apply 1 (by decide), mm1_apply, mm2_apply,
    Ideal.ofBits_def]
  rfl

end

end Cert.EdgeNet.Block

end
-- ==== Proof.BlockIsNet.lean ====
/-
  One grid point's stored values are the network's values on the edges the point covers.

  Grid point `t` covers the edges `t · 25600 + q`, `q < 25600`. When the source and destination blocks hold the
  features of those edges' nodes, the weight blocks the two halves of `W1` transposed and `W2` transposed, and the bias
  blocks the biases as columns, the block's hidden layer, its two outputs and its stored value at `(f, q)` are the
  network's for edge `t · 25600 + q`: the same sums, term by term.
-/
import proofs.«409358_j17729624998206_3_alg».proof.Proof.BlockValue
import proofs.«409358_j17729624998206_3_alg».proof.Proof.EdgeSpec

noncomputable section

namespace Cert.EdgeNet.Block

open Idealize.ShloMosaic Idealize.ShloMosaic.ValueIdx Cert.KernelIdeal
open scoped BigOperators

/-- The edge that entry `q` of grid point `t`'s block is. -/
def edgeOf (t : Fin 125) (q : Fin 25600) : Fin 3200000 := ⟨t.val * 25600 + q.val, by omega⟩

section
variable (xs xd : Vec Ideal S16x25600 .f32) (wd ws : Vec Ideal S64x16 .bf16) (b1c : Vec Ideal S64x1 .f32)
  (w2 : Vec Ideal S2x64 .bf16) (b2c : Vec Ideal S2x1 .f32)
  (x : SX.Idx → EReal) (ei : SEdges.Idx → BitVec 32) (W1 : SW1.Idx → EReal) (b1 : SB1.Idx → EReal)
  (W2 : SW2.Idx → EReal) (b2 : SB2.Idx → EReal) (t : Fin 125)
  (hxs : ∀ (k : Fin 16) (q : Fin 25600), xs (ix2 k q) = x (ix2 (node ei 0 (edgeOf t q)) k))
  (hxd : ∀ (k : Fin 16) (q : Fin 25600), xd (ix2 k q) = x (ix2 (node ei 1 (edgeOf t q)) k))
  (hwd : ∀ (h : Fin 64) (k : Fin 16), wd (ix2 h k) = W1 (ix2 ⟨k.val, by omega⟩ h))
  (hws : ∀ (h : Fin 64) (k : Fin 16), ws (ix2 h k) = W1 (ix2 ⟨16 + k.val, by omega⟩ h))
  (hb1 : ∀ h : Fin 64, b1c (ix2 h (0 : Fin 1)) = b1 (ix1 h))
  (hw2 : ∀ (j : Fin 2) (h : Fin 64), w2 (ix2 j h) = W2 (ix2 h j))
  (hb2 : ∀ j : Fin 2, b2c (ix2 j (0 : Fin 1)) = b2 (ix1 j))

include hxs hxd hwd hws hb1 in
/-- The block's hidden layer is the network's on the covered edge. -/
theorem hidB_eq (h : Fin 64) (q : Fin 25600) :
    hidB xs xd wd ws b1c h q = hid x ei W1 b1 (edgeOf t q) h := by
  unfold hidB hid
  simp only [hxs, hxd, hwd, hws, hb1]

include hxs hxd hwd hws hb1 hw2 hb2 in
/-- The block's two outputs are the network's on the covered edge. -/
theorem gateB_eq (j : Fin 2) (q : Fin 25600) :
    gateB xs xd wd ws b1c w2 b2c j q = gate x ei W1 b1 W2 b2 (edgeOf t q) j := by
  unfold gateB gate
  simp only [hidB_eq xs xd wd ws b1c x ei W1 b1 t hxs hxd hwd hws hb1, hw2, hb2]

include hxs hxd hwd hws hb1 hw2 hb2 in
/-- THE STORED VALUE at `(f, q)` is the network's result for the covered edge, feature `f`. -/
theorem pay_eq_G (f : Fin 16) (q : Fin 25600) :
    Cert.KernelIdeal.Gen.k0_pay1 (F := Ideal) xs xd wd ws b1c w2 b2c (ix2 f q) = G x ei W1 b1 W2 b2 (ix2 (edgeOf t q) f) := by
  rw [pay_apply, gateB_eq xs xd wd ws b1c w2 b2c x ei W1 b1 W2 b2 t hxs hxd hwd hws hb1 hw2 hb2,
    gateB_eq xs xd wd ws b1c w2 b2c x ei W1 b1 W2 b2 t hxs hxd hwd hws hb1 hw2 hb2, hxs, hxd]
  rfl

end

end Cert.EdgeNet.Block

end
-- ==== Proof.KernelValue.lean ====
/-
  The kernel's result is the edge network `G`.

  Grid point `t` of the 125 stages columns `t · 25600 …` of the two gathered arrays and writes back the same columns
  of the output array, so what it writes is the network's result for those edges, transposed (features × edges); the
  125 blocks tile the output array, which therefore ends holding `G` transposed, and the last host operation
  transposes it back.
-/
import proofs.«409358_j17729624998206_3_alg».proof.Proof.EntryAt
import proofs.«409358_j17729624998206_3_alg».proof.Proof.BlockIsNet
import Idealize.ShloMosaic.Lib.Pipeline.Value
import Idealize.ShloMosaic.Lib.StableHlo.Run
import Idealize.ShloMosaic.Lib.ValueLayout

set_option maxRecDepth 16384

noncomputable section

namespace Cert.EdgeNet.Kernel

open Idealize.ShloMosaic Idealize.ShloMosaic.TcCoe Idealize.ShloMosaic.ValueIdx Idealize.ShloMosaic.StableHlo
open Idealize.SL.Sem
open Idealize.ShloMosaic.Pipeline (Dat)
open Cert.KernelIdeal
open Cert.KernelIdeal.Gen (V V0 iblk dats out0_7 after0_7 k0_pay1 N_0 flush0_7 run_main hostOps1 launch0 r0_0 r0_1 r0_2 r0_3 r0_4)
open Cert.EdgeNet.Entry Cert.EdgeNet.Block
open Cert.KernelIdeal.Facts₀ Cert.KernelIdeal.Facts

variable (m : (ℓ : Loc nD τ sig) → Buf (Elt Ideal) ℓ)

/-- A grid point as a number below 125. -/
def pt (t : Fin cfg0.N) : Fin 125 := ⟨t.val, lt_of_lt_of_eq t.isLt N_0⟩

/-! ## The seven input blocks at a grid point, at their literal types -/

abbrev xsB (c : Dev nD) (t : Fin cfg0.N) : Vec Ideal S16x25600 .f32 := iblk m c 0 t
abbrev xdB (c : Dev nD) (t : Fin cfg0.N) : Vec Ideal S16x25600 .f32 := iblk m c 1 t
abbrev wdB (c : Dev nD) (t : Fin cfg0.N) : Vec Ideal S64x16 .bf16 := iblk m c 2 t
abbrev wsB (c : Dev nD) (t : Fin cfg0.N) : Vec Ideal S64x16 .bf16 := iblk m c 3 t
abbrev b1B (c : Dev nD) (t : Fin cfg0.N) : Vec Ideal S64x1 .f32 := iblk m c 4 t
abbrev w2B (c : Dev nD) (t : Fin cfg0.N) : Vec Ideal S2x64 .bf16 := iblk m c 5 t
abbrev b2B (c : Dev nD) (t : Fin cfg0.N) : Vec Ideal S2x1 .f32 := iblk m c 6 t

/-- The index maps, decided over the grid: the two gathered arrays and the output move along the edge axis with the
    grid point; the weights and biases stay whole. -/
theorem idx_facts : ∀ t : Fin cfg0.N,
    (win0_0.index t (0 : Fin 2) = 0 ∧ win0_0.index t (1 : Fin 2) = t.val)
    ∧ (win0_1.index t (0 : Fin 2) = 0 ∧ win0_1.index t (1 : Fin 2) = t.val)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = t.val) :=
  (by decide +kernel : ∀ t : Fin grid0.N, _)

/-! ## A block read through its window, over an arbitrary array

Windows 0 and 1 at point `t` read columns `t · 25600 + q`; the other input windows read their whole arrays. -/

theorem read0 (A : S16x3200000.Idx → EReal) (t : Fin cfg0.N) (p : Fin 16) (q : Fin 25600) :
    ((cfg0.win 0).blk t).view.read (Elt Ideal) A (ix2 p q) = A (ix2 p (edgeOf (pt t) q)) := by
  obtain ⟨⟨e0, e1⟩, -⟩ := idx_facts t
  show A (((cfg0.win 0).blk t).view.emb (ix2 p q)) = A (ix2 p (edgeOf (pt t) q))
  refine congrArg A (funext fun a => Fin.ext ?_)
  match a with
  | ⟨0, _⟩ => show win0_0.index t (0 : Fin 2) * 16 + 1 * p.val = p.val; omega
  | ⟨1, _⟩ => show win0_0.index t (1 : Fin 2) * 25600 + 1 * q.val = t.val * 25600 + q.val; omega

theorem read1 (A : S16x3200000.Idx → EReal) (t : Fin cfg0.N) (p : Fin 16) (q : Fin 25600) :
    ((cfg0.win 1).blk t).view.read (Elt Ideal) A (ix2 p q) = A (ix2 p (edgeOf (pt t) q)) := by
  obtain ⟨-, ⟨e0, e1⟩, -⟩ := idx_facts t
  show A (((cfg0.win 1).blk t).view.emb (ix2 p q)) = A (ix2 p (edgeOf (pt t) q))
  refine congrArg A (funext fun a => Fin.ext ?_)
  match a with
  | ⟨0, _⟩ => show win0_1.index t (0 : Fin 2) * 16 + 1 * p.val = p.val; omega
  | ⟨1, _⟩ => show win0_1.index t (1 : Fin 2) * 25600 + 1 * q.val = t.val * 25600 + q.val; omega

theorem read2 (A : S64x16.Idx → EReal) (t : Fin cfg0.N) (p : Fin 64) (q : Fin 16) :
    ((cfg0.win 2).blk t).view.read (Elt Ideal) A (ix2 p q) = A (ix2 p q) := by
  obtain ⟨-, -, ⟨e0, e1⟩, -⟩ := idx_facts t
  show A (((cfg0.win 2).blk t).view.emb (ix2 p q)) = A (ix2 p q)
  refine congrArg A (funext fun a => Fin.ext ?_)
  match a with
  | ⟨0, _⟩ => show win0_2.index t (0 : Fin 2) * 64 + 1 * p.val = p.val; omega
  | ⟨1, _⟩ => show win0_2.index t (1 : Fin 2) * 16 + 1 * q.val = q.val; omega

theorem read3 (A : S64x16.Idx → EReal) (t : Fin cfg0.N) (p : Fin 64) (q : Fin 16) :
    ((cfg0.win 3).blk t).view.read (Elt Ideal) A (ix2 p q) = A (ix2 p q) := by
  obtain ⟨-, -, -, ⟨e0, e1⟩, -⟩ := idx_facts t
  show A (((cfg0.win 3).blk t).view.emb (ix2 p q)) = A (ix2 p q)
  refine congrArg A (funext fun a => Fin.ext ?_)
  match a with
  | ⟨0, _⟩ => show win0_3.index t (0 : Fin 2) * 64 + 1 * p.val = p.val; omega
  | ⟨1, _⟩ => show win0_3.index t (1 : Fin 2) * 16 + 1 * q.val = q.val; omega

theorem read4 (A : S64x1.Idx → EReal) (t : Fin cfg0.N) (p : Fin 64) (q : Fin 1) :
    ((cfg0.win 4).blk t).view.read (Elt Ideal) A (ix2 p q) = A (ix2 p q) := by
  obtain ⟨-, -, -, -, ⟨e0, e1⟩, -⟩ := idx_facts t
  show A (((cfg0.win 4).blk t).view.emb (ix2 p q)) = A (ix2 p q)
  refine congrArg A (funext fun a => Fin.ext ?_)
  match a with
  | ⟨0, _⟩ => show win0_4.index t (0 : Fin 2) * 64 + 1 * p.val = p.val; omega
  | ⟨1, _⟩ => show win0_4.index t (1 : Fin 2) * 1 + 1 * q.val = q.val; omega

theorem read5 (A : S2x64.Idx → EReal) (t : Fin cfg0.N) (p : Fin 2) (q : Fin 64) :
    ((cfg0.win 5).blk t).view.read (Elt Ideal) A (ix2 p q) = A (ix2 p q) := by
  obtain ⟨-, -, -, -, -, ⟨e0, e1⟩, -⟩ := idx_facts t
  show A (((cfg0.win 5).blk t).view.emb (ix2 p q)) = A (ix2 p q)
  refine congrArg A (funext fun a => Fin.ext ?_)
  match a with
  | ⟨0, _⟩ => show win0_5.index t (0 : Fin 2) * 2 + 1 * p.val = p.val; omega
  | ⟨1, _⟩ => show win0_5.index t (1 : Fin 2) * 64 + 1 * q.val = q.val; omega

theorem read6 (A : S2x1.Idx → EReal) (t : Fin cfg0.N) (p : Fin 2) (q : Fin 1) :
    ((cfg0.win 6).blk t).view.read (Elt Ideal) A (ix2 p q) = A (ix2 p q) := by
  obtain ⟨-, -, -, -, -, -, ⟨e0, e1⟩, -⟩ := idx_facts t
  show A (((cfg0.win 6).blk t).view.emb (ix2 p q)) = A (ix2 p q)
  refine congrArg A (funext fun a => Fin.ext ?_)
  match a with
  | ⟨0, _⟩ => show win0_6.index t (0 : Fin 2) * 2 + 1 * p.val = p.val; omega
  | ⟨1, _⟩ => show win0_6.index t (1 : Fin 2) * 1 + 1 * q.val = q.val; omega

/-! ## The blocks' entries -/

section Blocks
variable (c : Dev nD) (t : Fin cfg0.N)

theorem wdB_at (h : Fin 64) (k : Fin 16) : wdB m c t (ix2 h k) = aW1 m c (ix2 ⟨k.val, by omega⟩ h) :=
  (read2 (V m c main_v9) t h k).trans (wDst_at m c h k)

theorem wsB_at (h : Fin 64) (k : Fin 16) : wsB m c t (ix2 h k) = aW1 m c (ix2 ⟨16 + k.val, by omega⟩ h) :=
  (read3 (V m c main_v12) t h k).trans (wSrc_at m c h k)

theorem b1B_at (h : Fin 64) : b1B m c t (ix2 h (0 : Fin 1)) = aB1 m c (ix1 h) :=
  (read4 (V m c main_v15) t h 0).trans (b1_at m c h)

theorem w2B_at (j : Fin 2) (h : Fin 64) : w2B m c t (ix2 j h) = aW2 m c (ix2 h j) :=
  (read5 (V m c main_v14) t j h).trans (w2_at m c j h)

theorem b2B_at (j : Fin 2) : b2B m c t (ix2 j (0 : Fin 1)) = aB2 m c (ix1 j) :=
  (read6 (V m c main_v16) t j 0).trans (b2_at m c j)

variable (hr : ∀ i : SEdges.Idx, IntOp.cmpi .sge (aE m c i) 4294867296#32 = 1#1 ∧ IntOp.cmpi .slt (aE m c i) 100000#32 = 1#1)
include hr

theorem xsB_at (k : Fin 16) (q : Fin 25600) :
    xsB m c t (ix2 k q) = aX m c (ix2 (node (aE m c) 0 (edgeOf (pt t) q)) k) :=
  (read0 (V m c main_v5) t k q).trans (src_at m c hr k (edgeOf (pt t) q))

theorem xdB_at (k : Fin 16) (q : Fin 25600) :
    xdB m c t (ix2 k q) = aX m c (ix2 (node (aE m c) 1 (edgeOf (pt t) q)) k) :=
  (read1 (V m c main_v6) t k q).trans (dst_at m c hr k (edgeOf (pt t) q))

end Blocks

/-! ## What a point writes back, the cover, and the output array after the region -/

/-- The network's result transposed: features × edges, as the region's output array holds it. -/
def GT (c : Dev nD) : S16x3200000.Idx → EReal := fun i =>
  G (aX m c) (aE m c) (aW1 m c) (aB1 m c) (aW2 m c) (aB2 m c) (ix2 (i 1) (i 0))

theorem hz : (![0, 0] : Fin 2 → Nat) = fun _ => 0 := funext fun a => by fin_cases a <;> rfl

section Array
variable (c : Dev nD)
  (hr : ∀ i : SEdges.Idx, IntOp.cmpi .sge (aE m c i) 4294867296#32 = 1#1 ∧ IntOp.cmpi .slt (aE m c i) 100000#32 = 1#1)

include hr in
/-- WHAT POINT `t` WRITES BACK is block `t` of the transposed result. -/
theorem flushed_eq (t : Fin cfg0.N) :
    (dats m 0 c).flushed 7 t = ((cfg0.win 7).blk t).view.read (Elt Ideal) (GT m c) := by
  show (cfg0.win 7).cut (grid0.coords t) ((dats m 0 c).after 7 t) = _
  rw [after0_7]
  unfold out0_7
  rw [View.canon_unit_zero hz]
  simp only [View.ld_unit_zero (S := S16x25600) hz, View.ld_unit_zero (S := S64x16) hz, View.ld_unit_zero (S := S64x1) hz,
    View.ld_unit_zero (S := S2x64) hz, View.ld_unit_zero (S := S2x1) hz]
  funext j
  obtain ⟨f, q, rfl⟩ : ∃ (f : Fin 16) (q : Fin 25600), j = ix2 f q := ⟨j 0, j 1, eq_ix2 j⟩
  obtain ⟨-, -, -, -, -, -, -, ⟨e0, e1⟩⟩ := idx_facts t
  show k0_pay1 (F := Ideal) (xsB m c t) (xdB m c t) (wdB m c t) (wsB m c t) (b1B m c t) (w2B m c t) (b2B m c t) (ix2 f q)
    = GT m c (((cfg0.win 7).blk t).view.emb (ix2 f q))
  refine (pay_eq_G (xsB m c t) (xdB m c t) (wdB m c t) (wsB m c t) (b1B m c t) (w2B m c t) (b2B m c t)
    (aX m c) (aE m c) (aW1 m c) (aB1 m c) (aW2 m c) (aB2 m c) (pt t)
    (xsB_at m c t hr) (xdB_at m c t hr) (wdB_at m c t) (wsB_at m c t) (b1B_at m c t) (w2B_at m c t) (b2B_at m c t) f q).trans ?_
  unfold GT
  refine congrArg (G (aX m c) (aE m c) (aW1 m c) (aB1 m c) (aW2 m c) (aB2 m c)) (funext fun a => Fin.ext ?_)
  match a with
  | ⟨0, _⟩ => show t.val * 25600 + q.val = win0_7.index t (1 : Fin 2) * 25600 + 1 * q.val; omega
  | ⟨1, _⟩ => show f.val = win0_7.index t (0 : Fin 2) * 16 + 1 * f.val; omega

/-- An index of the output array is in point `t`'s block iff each coordinate is in the block's range on its axis. -/
theorem mem_blk (t : Fin cfg0.N) (i : S16x3200000.Idx) :
    i ∈ ((cfg0.win 7).blk t).view.set ↔ ∀ a : Fin 2, win0_7.index t a * S16x25600.size a ≤ (i a).val
      ∧ (i a).val < win0_7.index t a * S16x25600.size a + S16x25600.size a := by
  show i ∈ ((View.whole main_v17).slice (win0_7.rect t)).set ↔ _
  rw [View.set_slice_whole, Rect.mem_set_unit]
  exact Iff.rfl

/-- The blocks tile the output array: edge `e` is in the block of point `e / 25600`. -/
theorem cover (i : S16x3200000.Idx) :
    ∃ t : Fin cfg0.N, (cfg0.win 7).flush t = true ∧ i ∈ ((cfg0.win 7).blk t).view.set := by
  have hi0 : (i 0).val < 16 := (i 0).isLt
  have hi1 : (i 1).val < 3200000 := (i 1).isLt
  have hN : (i 1).val / 25600 < cfg0.N := lt_of_lt_of_eq (by omega : (i 1).val / 25600 < 125) N_0.symm
  obtain ⟨-, -, -, -, -, -, -, ⟨e0, e1⟩⟩ := idx_facts ⟨(i 1).val / 25600, hN⟩
  refine ⟨⟨(i 1).val / 25600, hN⟩, flush0_7 _, (mem_blk _ i).2 fun a => ?_⟩
  match a with
  | ⟨0, _⟩ =>
    show win0_7.index ⟨(i 1).val / 25600, hN⟩ (0 : Fin 2) * 16 ≤ (i 0).val
      ∧ (i 0).val < win0_7.index ⟨(i 1).val / 25600, hN⟩ (0 : Fin 2) * 16 + 16
    omega
  | ⟨1, _⟩ =>
    show win0_7.index ⟨(i 1).val / 25600, hN⟩ (1 : Fin 2) * 25600 ≤ (i 1).val
      ∧ (i 1).val < win0_7.index ⟨(i 1).val / 25600, hN⟩ (1 : Fin 2) * 25600 + 25600
    have : (⟨(i 1).val / 25600, hN⟩ : Fin cfg0.N).val = (i 1).val / 25600 := rfl
    omega

include hr in
/-- THE OUTPUT ARRAY after the region: the transposed result. -/
theorem final : (dats m 0 c).arrAt 7 cfg0.N = GT m c :=
  (dats m 0 c).arrAt_eq_of_cover 7 (GT m c) (fun t _ => flushed_eq m c hr t) cover

include hr in
/-- THE RESULT after the host's transposition: `G`. -/
theorem result_eq :
    Pipeline.afterTail₀ cfgs (dats m) 0 (V0 m) [hostOps1] c main_v18
      = G (aX m c) (aE m c) (aW1 m c) (aB1 m c) (aW2 m c) (aB2 m c) := by
  unfold Pipeline.afterTail₀
  show StableHlo.after hostOps1 _ (Proc.devRef .tc main_v18) = _
  after_results
  rw [Pipeline.withArrays_arr spec0 launch0.win.arr_inj c _ _ 7]
  rw [show (dats m 0 c).arrAt 7 (cfgs 0).N = GT m c from final m c hr]
  funext i
  obtain ⟨e, f, rfl⟩ : ∃ (e : Fin 3200000) (f : Fin 16), i = ix2 e f := ⟨i 0, i 1, eq_ix2 i⟩
  exact (transpose_ix2_apply (GT m c) _ e f).trans rfl

end Array

end Cert.EdgeNet.Kernel

end
-- ==== Proof.KernelRun.lean ====
/-
  The kernel's run, read: under the range hypothesis on the index words, every weakly fair execution terminates with
  the result buffer holding the edge network `G` of the argument arrays as launched, and the arguments unchanged.
-/
import proofs.«409358_j17729624998206_3_alg».proof.Proof.KernelValue

set_option maxRecDepth 16384

noncomputable section

namespace Cert.EdgeNet.Kernel

open Idealize.ShloMosaic Idealize.ShloMosaic.TcCoe Idealize.ShloMosaic.ValueIdx
open Idealize.SL.Sem
open Cert.KernelIdeal
open Cert.KernelIdeal.Gen (V0 dats run_main hostOps1 W_main_arg0 W_main_arg1 W_main_arg2 W_main_arg3 W_main_arg4 W_main_arg5)
open Cert.EdgeNet.Entry

variable (m : (ℓ : Loc nD τ sig) → Buf (Elt Ideal) ℓ) (ρ : Dev nD → PrngReg)

/-- THE KERNEL'S RUN: the result is `G` of the arguments, which end unchanged. -/
theorem run
    (hr : ∀ (c : Dev nD) (i : SEdges.Idx), IntOp.cmpi .sge (aE m c i) 4294867296#32 = 1#1 ∧ IntOp.cmpi .slt (aE m c i) 100000#32 = 1#1) :
    θ_run defs (onTc (τ := τ) (main (F := Ideal))) ⟨m, fun _ => 0, ρ⟩ (fun r => ∀ c : Dev nD,
      r.2.mem ((c.tc : Thread nD τ).loc main_v18) = G (aX m c) (aE m c) (aW1 m c) (aB1 m c) (aW2 m c) (aB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v18 (Pipeline.mem_restRefs_of main_v18 (by decide) (by decide))).trans (result_eq m c (hr c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.EdgeNet.Kernel

end
-- ==== Proof.lean ====
/-
  An edge network on a graph: for every edge, a two-layer perceptron reads the concatenated features of the edge's
  destination and source nodes and returns a gate `a` and a scale `b`; the edge's result row is
  `a · (x_dst − b · x_src)`.

  The kernel gathers the two nodes' features on the host (from the transposed node table, features × edges), runs the
  perceptron on blocks of 25600 edges — the first layer as two products, one per half of `W1`, instead of one product
  with the concatenation — and transposes the result back; the reference gathers rows, concatenates and multiplies
  once. At the ideal values both are the function `G` (EdgeSpec): the one product's sum over the 32 joined columns is
  the two products' sums over sixteen columns each, a regrouping of a finite sum; every other step is the same
  operation, a product's factors commuted. No finiteness of the float inputs is used.

  The index array is constrained: every word lies in `[-100000, 100000)`, the range in which it names a node (a
  negative word counted from the end). Outside it the reference's gather clamps the index into the table while the
  kernel's take fills with a non-number, and the two results differ; inside it the take's range test always passes
  (EntryGather), and both programs read the same node.

  The frames of the two kernel programs are the generated ones; the reference's frame is its generated run. The
  idealization rewrote no operation, so `preserves` is trivial.
-/
import proofs.«409358_j17729624998206_3_alg».proof.Defs
import proofs.«409358_j17729624998206_3_alg».proof.Proof.Gen.Kernel
import proofs.«409358_j17729624998206_3_alg».proof.Proof.Gen.Kernel.Skeleton
import proofs.«409358_j17729624998206_3_alg».proof.Proof.Gen.Kernel.Launch
import proofs.«409358_j17729624998206_3_alg».proof.Proof.Gen.Kernel.Points
import proofs.«409358_j17729624998206_3_alg».proof.Proof.Gen.Kernel.Frame
import proofs.«409358_j17729624998206_3_alg».proof.Proof.Gen.KernelIdeal
import proofs.«409358_j17729624998206_3_alg».proof.Proof.Gen.KernelIdeal.Skeleton
import proofs.«409358_j17729624998206_3_alg».proof.Proof.Gen.KernelIdeal.Launch
import proofs.«409358_j17729624998206_3_alg».proof.Proof.Gen.KernelIdeal.Points
import proofs.«409358_j17729624998206_3_alg».proof.Proof.Gen.KernelIdeal.Frame
import proofs.«409358_j17729624998206_3_alg».proof.Proof.Gen.ReferenceIdeal
import proofs.«409358_j17729624998206_3_alg».proof.Proof.Gen.Pre_finite_inputs
import proofs.«409358_j17729624998206_3_alg».proof.Proof.Gen.ReferenceIdeal.Run
import proofs.«409358_j17729624998206_3_alg».proof.Proof.Gen.ReferenceIdeal.Read
import proofs.«409358_j17729624998206_3_alg».proof.Proof.EdgeRange
import proofs.«409358_j17729624998206_3_alg».proof.Proof.RefValue
import proofs.«409358_j17729624998206_3_alg».proof.Proof.KernelRun
import Idealize.ShloMosaic.Adequacy
import Idealize.ShloMosaic.Init

noncomputable section

namespace Cert.Proof

open Idealize.ShloMosaic Idealize.SL.Sem Cert.Kernel

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments, the index words in range, both programs end with the edge network `G`
    of the arguments in their result buffers. -/
theorem algebraic : Cert.algebraic_KernelIdeal_ReferenceIdeal := by
  intro m ρ m' ρ' hpre hagree
  have hr : ∀ (c : Dev Cert.KernelIdeal.nD) (i : Cert.EdgeNet.SEdges.Idx),
      IntOp.cmpi .sge (Cert.EdgeNet.Entry.aE m c i) 4294867296#32 = 1#1
        ∧ IntOp.cmpi .slt (Cert.EdgeNet.Entry.aE m c i) 100000#32 = 1#1 :=
    fun c i => Cert.EdgeNet.edges_in_range _ _ _ _ _ _ (hpre c) i
  refine ⟨fun c => Cert.EdgeNet.G (Cert.EdgeNet.Entry.aX m c) (Cert.EdgeNet.Entry.aE m c) (Cert.EdgeNet.Entry.aW1 m c)
    (Cert.EdgeNet.Entry.aB1 m c) (Cert.EdgeNet.Entry.aW2 m c) (Cert.EdgeNet.Entry.aB2 m c),
    Cert.EdgeNet.Kernel.run m ρ hr, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v34_eq, Cert.EdgeNet.RefSide.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
